-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S1600000x4 : Shape := ⟨2, ![1600000, 4]⟩
abbrev S100000 : Shape := ⟨1, ![100000]⟩
abbrev S7x4 : Shape := ⟨2, ![7, 4]⟩
abbrev S7 : Shape := ⟨1, ![7]⟩
abbrev S64x7 : Shape := ⟨2, ![64, 7]⟩
abbrev S64 : Shape := ⟨1, ![64]⟩
abbrev S64x64 : Shape := ⟨2, ![64, 64]⟩
abbrev S64x4 : Shape := ⟨2, ![64, 4]⟩
abbrev S12x64 : Shape := ⟨2, ![12, 64]⟩
abbrev S12 : Shape := ⟨1, ![12]⟩
abbrev S_ : Shape := ⟨0, ![]⟩
abbrev S1x1600000 : Shape := ⟨2, ![1, 1600000]⟩
abbrev S1600000 : Shape := ⟨1, ![1600000]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S7x4 : S_.BroadcastsInDim S7x4 (![] : Fin 0 → Fin S7x4.rank)
  reducesTo_S7x4_S_d0_1 : S7x4.ReducesTo [0, 1] S_
  bcast_S_S7 : S_.BroadcastsInDim S7 (![] : Fin 0 → Fin S7.rank)
  reducesTo_S7_S_d0 : S7.ReducesTo [0] S_
  bcast_S_S64x7 : S_.BroadcastsInDim S64x7 (![] : Fin 0 → Fin S64x7.rank)
  reducesTo_S64x7_S_d0_1 : S64x7.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S12x64 : S_.BroadcastsInDim S12x64 (![] : Fin 0 → Fin S12x64.rank)
  reducesTo_S12x64_S_d0_1 : S12x64.ReducesTo [0, 1] S_
  bcast_S_S12 : S_.BroadcastsInDim S12 (![] : Fin 0 → Fin S12.rank)
  reducesTo_S12_S_d0 : S12.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_v78 : IVec S_ 1) (main_v82 : IVec S1600000 1) (main_v84 : IVec S1600000 32) (main_v85 : IVec S1600000 32) : IVec S_ 1 :=
  let main_v86 : IVec S1600000 1 := cmpi .slt main_v84 main_v85
  let main_v87 : IVec S1600000 1 := andi main_v82 main_v86
  let main_c_32 : IVec S_ 1 := constantI S_ 1 1#1
  let main_v88 : IVec S_ 1 := (fun x v => Host.reduce IntOp.andi x v reducesTo_S1600000_S_d0 h_S_) main_v87 main_c_32
  let main_v89 : IVec S_ 1 := andi main_v78 main_v88
  main_v89

def fn_part4 {F : FTy → Type} [FloatOps F] (main_arg1 : IVec S2x1600000 32) (main_arg16 : FVec F S12x64 .f32) (main_arg17 : FVec F S12 .f32) (main_v63 : IVec S_ 1) (main_v67 : IVec S_ 1) : IVec S_ 1 :=
  let main_v68 : IVec S_ 1 := andi main_v63 main_v67
  let main_v69 : FVec F S12x64 .f32 := Host.absf main_arg16
  let main_cst_26 : FVec F S_ .f32 := constant S_ .f32 0x7F800000#32
  let main_v70 : FVec F S12x64 .f32 := broadcastInDim S12x64 ![] bcast_S_S12x64 main_cst_26
  let main_v71 : IVec S12x64 1 := cmpf .olt main_v69 main_v70
  let main_c_27 : IVec S_ 1 := constantI S_ 1 1#1
  let main_v72 : IVec S_ 1 := (fun x v => Host.reduce IntOp.andi x v reducesTo_S12x64_S_d0_1 h_S_) main_v71 main_c_27
  let main_v73 : IVec S_ 1 := andi main_v68 main_v72
  let main_v74 : FVec F S12 .f32 := Host.absf main_arg17
  let main_cst_28 : FVec F S_ .f32 := constant S_ .f32 0x7F800000#32
  let main_v75 : FVec F S12 .f32 := broadcastInDim S12 ![] bcast_S_S12 main_cst_28
  let main_v76 : IVec S12 1 := cmpf .olt main_v74 main_v75
  let main_c_29 : IVec S_ 1 := constantI S_ 1 1#1
  let main_v77 : IVec S_ 1 := (fun x v => Host.reduce IntOp.andi x v reducesTo_S12_S_d0 h_S_) main_v76 main_c_29
  let main_v78 : IVec S_ 1 := andi main_v73 main_v77
  let main_v79 : IVec S1x1600000 32 := (extractStridedSlice S1x1600000 ![0, 0] · slices_S2x1600000_S1x1600000_0_0) main_arg1
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_v83 : IVec S1x1600000 32 := (extractStridedSlice S1x1600000 ![0, 0] · slices_S2x1600000_S1x1600000_0_0) main_arg1
  let main_v84 : IVec S1600000 32 := shapeCast S1600000 main_v83 shapeCasts_S1x1600000_S1600000
  let main_c_31 : IVec S_ 32 := constantI S_ 32 100000#32
  let main_v85 : IVec S1600000 32 := broadcastInDim S1600000 ![] bcast_S_S1600000 main_c_31
  fn_part5 (F := F) main_v78 main_v82 main_v84 main_v85

def fn_part3 {F : FTy → Type} [FloatOps F] (main_arg1 : IVec S2x1600000 32) (main_arg13 : FVec F S64 .f32) (main_arg14 : FVec F S64x64 .f32) (main_arg15 : FVec F S64 .f32) (main_arg16 : FVec F S12x64 .f32) (main_arg17 : FVec F S12 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg16 main_arg17 main_v63 main_v67

def fn_part2 {F : FTy → Type} [FloatOps F] (main_arg1 : IVec S2x1600000 32) (main_arg9 : FVec F S64 .f32) (main_arg10 : FVec F S64x4 .f32) (main_arg11 : FVec F S64 .f32) (main_arg12 : FVec F S64x64 .f32) (main_arg13 : FVec F S64 .f32) (main_arg14 : FVec F S64x64 .f32) (main_arg15 : FVec F S64 .f32) (main_arg16 : FVec F S12x64 .f32) (main_arg17 : FVec F S12 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x4 .f32 := Host.absf main_arg10
  let main_cst_14 : FVec F S_ .f32 := constant S_ .f32 0x7F800000#32
  let main_v40 : FVec F S64x4 .f32 := broadcastInDim S64x4 ![] bcast_S_S64x4 main_cst_14
  let main_v41 : IVec S64x4 1 := cmpf .olt main_v39 main_v40
  let main_c_15 : IVec S_ 1 := constantI S_ 1 1#1
  let main_v42 : IVec S_ 1 := (fun x v => Host.reduce IntOp.andi x v reducesTo_S64x4_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg1 main_arg13 main_arg14 main_arg15 main_arg16 main_arg17 main_v48 main_v49 main_v50

def fn_part1 {F : FTy → Type} [FloatOps F] (main_arg1 : IVec S2x1600000 32) (main_arg6 : FVec F S64x7 .f32) (main_arg7 : FVec F S64 .f32) (main_arg8 : FVec F S64x64 .f32) (main_arg9 : FVec F S64 .f32) (main_arg10 : FVec F S64x4 .f32) (main_arg11 : FVec F S64 .f32) (main_arg12 : FVec F S64x64 .f32) (main_arg13 : FVec F S64 .f32) (main_arg14 : FVec F S64x64 .f32) (main_arg15 : FVec F S64 .f32) (main_arg16 : FVec F S12x64 .f32) (main_arg17 : FVec F S12 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S64x7 .f32 := Host.absf main_arg6
  let main_cst_6 : FVec F S_ .f32 := constant S_ .f32 0x7F800000#32
  let main_v20 : FVec F S64x7 .f32 := broadcastInDim S64x7 ![] bcast_S_S64x7 main_cst_6
  let main_v21 : IVec S64x7 1 := cmpf .olt main_v19 main_v20
  let main_c_7 : IVec S_ 1 := constantI S_ 1 1#1
  let main_v22 : IVec S_ 1 := (fun x v => Host.reduce IntOp.andi x v reducesTo_S64x7_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S100000x7 .f32) (main_arg1 : IVec S2x1600000 32) (main_arg2 : FVec F S1600000x4 .f32) (main_arg3 : IVec S100000 32) (main_arg4 : FVec F S7x4 .f32) (main_arg5 : FVec F S7 .f32) (main_arg6 : FVec F S64x7 .f32) (main_arg7 : FVec F S64 .f32) (main_arg8 : FVec F S64x64 .f32) (main_arg9 : FVec F S64 .f32) (main_arg10 : FVec F S64x4 .f32) (main_arg11 : FVec F S64 .f32) (main_arg12 : FVec F S64x64 .f32) (main_arg13 : FVec F S64 .f32) (main_arg14 : FVec F S64x64 .f32) (main_arg15 : FVec F S64 .f32) (main_arg16 : FVec F S12x64 .f32) (main_arg17 : FVec F S12 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S1600000x4 .f32 := Host.absf main_arg2
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S7x4 .f32 := Host.absf main_arg4
  let main_cst_2 : FVec F S_ .f32 := constant S_ .f32 0x7F800000#32
  let main_v10 : FVec F S7x4 .f32 := broadcastInDim S7x4 ![] bcast_S_S7x4 main_cst_2
  let main_v11 : IVec S7x4 1 := cmpf .olt main_v9 main_v10
  let main_c_3 : IVec S_ 1 := constantI S_ 1 1#1
  let main_v12 : IVec S_ 1 := (fun x v => Host.reduce IntOp.andi x v reducesTo_S7x4_S_d0_1 h_S_) main_v11 main_c_3
  let main_v13 : IVec S_ 1 := andi main_v8 main_v12
  let main_v14 : FVec F S7 .f32 := Host.absf main_arg5
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S100000x7 : Shape := ⟨2, ![100000, 7]⟩
abbrev S2x1600000 : Shape := ⟨2, ![2, 1600000]⟩
abbrev S1600000x4 : Shape := ⟨2, ![1600000, 4]⟩
abbrev S100000 : Shape := ⟨1, ![100000]⟩
abbrev S7x4 : Shape := ⟨2, ![7, 4]⟩
abbrev S7 : Shape := ⟨1, ![7]⟩
abbrev S64x7 : Shape := ⟨2, ![64, 7]⟩
abbrev S64 : Shape := ⟨1, ![64]⟩
abbrev S64x64 : Shape := ⟨2, ![64, 64]⟩
abbrev S64x4 : Shape := ⟨2, ![64, 4]⟩
abbrev S12x64 : Shape := ⟨2, ![12, 64]⟩
abbrev S12 : Shape := ⟨1, ![12]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x7 : Shape := ⟨2, ![1600000, 7]⟩
abbrev S1x7 : Shape := ⟨2, ![1, 7]⟩
abbrev S8000x4 : Shape := ⟨2, ![8000, 4]⟩
abbrev S8000x7 : Shape := ⟨2, ![8000, 7]⟩
abbrev S4x7 : Shape := ⟨2, ![4, 7]⟩
abbrev S1x64 : Shape := ⟨2, ![1, 64]⟩
abbrev S100000x64 : Shape := ⟨2, ![100000, 64]⟩
abbrev S5000x7 : Shape := ⟨2, ![5000, 7]⟩
abbrev S5000x64 : Shape := ⟨2, ![5000, 64]⟩
abbrev S7x64 : Shape := ⟨2, ![7, 64]⟩
abbrev S1600000x64 : Shape := ⟨2, ![1600000, 64]⟩
abbrev S8000x64 : Shape := ⟨2, ![8000, 64]⟩
abbrev S4x64 : Shape := ⟨2, ![4, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x12 : Shape := ⟨2, ![1, 12]⟩
abbrev S1000x12 : Shape := ⟨2, ![1000, 12]⟩
abbrev S64x12 : Shape := ⟨2, ![64, 12]⟩

abbrev nBuf : Space → Nat
  | .hbm => 104
  | .vmem => 40
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S1600000x4, .f32⟩
  | .hbm, ⟨3, _⟩ => ⟨S100000, .i32⟩
  | .hbm, ⟨4, _⟩ => ⟨S7x4, .f32⟩
  | .hbm, ⟨5, _⟩ => ⟨S7, .f32⟩
  | .hbm, ⟨6, _⟩ => ⟨S64x7, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x4, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S12x64, .f32⟩
  | .hbm, ⟨17, _⟩ => ⟨S12, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x7, .f32⟩
  | .hbm, ⟨41, _⟩ => ⟨S1600000x7, .i1⟩
  | .hbm, ⟨42, _⟩ => ⟨S_, .f32⟩
  | .hbm, ⟨43, _⟩ => ⟨S1600000x7, .f32⟩
  | .hbm, ⟨44, _⟩ => ⟨S1600000x7, .f32⟩
  | .hbm, ⟨45, _⟩ => ⟨S1x7, .f32⟩
  | .hbm, ⟨46, _⟩ => ⟨S1600000x7, .f32⟩
  | .hbm, ⟨47, _⟩ => ⟨S_, .f32⟩
  | .hbm, ⟨48, _⟩ => ⟨S100000x7, .f32⟩
  | .hbm, ⟨49, _⟩ => ⟨S1600000x1, .i32⟩
  | .hbm, ⟨50, _⟩ => ⟨S100000x7, .f32⟩
  | .hbm, ⟨51, _⟩ => ⟨S1x64, .f32⟩
  | .hbm, ⟨52, _⟩ => ⟨S1x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1, .i32⟩
  | .hbm, ⟨63, _⟩ => ⟨S_, .i32⟩
  | .hbm, ⟨64, _⟩ => ⟨S1600000x1, .i32⟩
  | .hbm, ⟨65, _⟩ => ⟨S1600000x1, .i1⟩
  | .hbm, ⟨66, _⟩ => ⟨S1x1, .i32⟩
  | .hbm, ⟨67, _⟩ => ⟨S1600000x1, .i32⟩
  | .hbm, ⟨68, _⟩ => ⟨S1600000x1, .i1⟩
  | .hbm, ⟨69, _⟩ => ⟨S1600000x1, .i1⟩
  | .hbm, ⟨70, _⟩ => ⟨S_, .i1⟩
  | .hbm, ⟨71, _⟩ => ⟨S1600000, .i1⟩
  | .hbm, ⟨72, _⟩ => ⟨S1600000x64, .f32⟩
  | .hbm, ⟨73, _⟩ => ⟨S1600000x64, .i1⟩
  | .hbm, ⟨74, _⟩ => ⟨S_, .f32⟩
  | .hbm, ⟨75, _⟩ => ⟨S1600000x64, .f32⟩
  | .hbm, ⟨76, _⟩ => ⟨S1600000x64, .f32⟩
  | .hbm, ⟨77, _⟩ => ⟨S1x64, .f32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S1x64, .f32⟩
  | .hbm, ⟨84, _⟩ => ⟨S1x64, .f32⟩
  | .hbm, ⟨85, _⟩ => ⟨S100000x64, .f32⟩
  | .hbm, ⟨86, _⟩ => ⟨S_, .f32⟩
  | .hbm, ⟨87, _⟩ => ⟨S1000x64, .f32⟩
  | .hbm, ⟨88, _⟩ => ⟨S100000x1, .i32⟩
  | .hbm, ⟨89, _⟩ => ⟨S1000x64, .f32⟩
  | .hbm, ⟨90, _⟩ => ⟨S_, .f32⟩
  | .hbm, ⟨91, _⟩ => ⟨S100000, .f32⟩
  | .hbm, ⟨92, _⟩ => ⟨S_, .f32⟩
  | .hbm, ⟨93, _⟩ => ⟨S1000, .f32⟩
  | .hbm, ⟨94, _⟩ => ⟨S100000x1, .i32⟩
  | .hbm, ⟨95, _⟩ => ⟨S1000, .f32⟩
  | .hbm, ⟨96, _⟩ => ⟨S_, .f32⟩
  | .hbm, ⟨97, _⟩ => ⟨S1000, .f32⟩
  | .hbm, ⟨98, _⟩ => ⟨S1000, .f32⟩
  | .hbm, ⟨99, _⟩ => ⟨S1000x1, .f32⟩
  | .hbm, ⟨100, _⟩ => ⟨S1000x64, .f32⟩
  | .hbm, ⟨101, _⟩ => ⟨S1000x64, .f32⟩
  | .hbm, ⟨102, _⟩ => ⟨S1x12, .f32⟩
  | .hbm, ⟨103, _⟩ => ⟨S1000x12, .f32⟩
  | .local _ .vmem, ⟨0, _⟩ => ⟨S8000x4, .f32⟩
  | .local _ .vmem, ⟨1, _⟩ => ⟨S8000x4, .f32⟩
  | .local _ .vmem, ⟨2, _⟩ => ⟨S8000x7, .f32⟩
  | .local _ .vmem, ⟨3, _⟩ => ⟨S8000x7, .f32⟩
  | .local _ .vmem, ⟨4, _⟩ => ⟨S7x4, .f32⟩
  | .local _ .vmem, ⟨5, _⟩ => ⟨S1x7, .f32⟩
  | .local _ .vmem, ⟨6, _⟩ => ⟨S8000x7, .f32⟩
  | .local _ .vmem, ⟨7, _⟩ => ⟨S8000x7, .f32⟩
  | .local _ .vmem, ⟨8, _⟩ => ⟨S5000x7, .f32⟩
  | .local _ .vmem, ⟨9, _⟩ => ⟨S5000x7, .f32⟩
  | .local _ .vmem, ⟨10, _⟩ => ⟨S5000x7, .f32⟩
  | .local _ .vmem, ⟨11, _⟩ => ⟨S5000x7, .f32⟩
  | .local _ .vmem, ⟨12, _⟩ => ⟨S64x7, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S8000x4, .f32⟩
  | .local _ .vmem, ⟨19, _⟩ => ⟨S8000x4, .f32⟩
  | .local _ .vmem, ⟨20, _⟩ => ⟨S8000x64, .f32⟩
  | .local _ .vmem, ⟨21, _⟩ => ⟨S8000x64, .f32⟩
  | .local _ .vmem, ⟨22, _⟩ => ⟨S64x4, .f32⟩
  | .local _ .vmem, ⟨23, _⟩ => ⟨S1x64, .f32⟩
  | .local _ .vmem, ⟨24, _⟩ => ⟨S8000x64, .f32⟩
  | .local _ .vmem, ⟨25, _⟩ => ⟨S8000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S1000x64, .f32⟩
  | .local _ .vmem, ⟨37, _⟩ => ⟨S12x64, .f32⟩
  | .local _ .vmem, ⟨38, _⟩ => ⟨S1x12, .f32⟩
  | .local _ .vmem, ⟨39, _⟩ => ⟨S1000x12, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_cst_0 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_1 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_cst_2 : Ref sig .tc := ⟨.hbm, 90, rfl⟩
abbrev main_v25 : Ref sig .tc := ⟨.hbm, 91, rfl⟩
abbrev main_cst_3 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_4 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem1_0 : DmaSem sig := 37
abbrev cc4_sem2_0 : DmaSem sig := 38
abbrev cc4_sem3_0 : DmaSem sig := 39

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x7 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S12x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x12 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1000x12 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x7_0 : S1600000.BroadcastsInDim S1600000x7 (![0] : Fin 1 → Fin S1600000x7.rank)
  bcast_S_S1600000x7 : S_.BroadcastsInDim S1600000x7 (![] : Fin 0 → Fin S1600000x7.rank)
  shapeCasts_S7_S1x7 : S7.ShapeCasts S1x7
  inb_S8000x4_S8000x4_0_0 : ∀ a, (![0, 0] : Fin 2 → Nat) a + S8000x4.size a ≤ S8000x4.size a
  h_S8000x4 : 0 < S8000x4.numel
  bitsLt_bf16_f32 : FTy.bits .bf16 < FTy.bits .f32
  inb_S7x4_S7x4_0_0 : ∀ a, (![0, 0] : Fin 2 → Nat) a + S7x4.size a ≤ S7x4.size a
  h_S7x4 : 0 < S7x4.numel
  transposes_S7x4_p1_0_S4x7 : S7x4.Transposes [1, 0] S4x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S8000x7 : S1x7.Broadcasts S8000x7
  inb_S8000x7_S8000x7_0_0 : ∀ a, (![0, 0] : Fin 2 → Nat) a + S8000x7.size a ≤ S8000x7.size a
  h_S8000x7 : 0 < S8000x7.numel
  shapeCasts_S8000x7_S8000x7 : S8000x7.ShapeCasts S8000x7
  bcast_S_S100000x7 : S_.BroadcastsInDim S100000x7 (![] : Fin 0 → Fin S100000x7.rank)
  shapeCasts_S64_S1x64 : S64.ShapeCasts S1x64
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  inb_S64x7_S64x7_0_0 : ∀ a, (![0, 0] : Fin 2 → Nat) a + S64x7.size a ≤ S64x7.size a
  h_S64x7 : 0 < S64x7.numel
  transposes_S64x7_p1_0_S7x64 : S64x7.Transposes [1, 0] S7x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  shapeCasts_S5000x64_S5000x64 : S5000x64.ShapeCasts S5000x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  shapeCasts_S12_S1x12 : S12.ShapeCasts S1x12
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S12x64_S12x64_0_0 : ∀ a, (![0, 0] : Fin 2 → Nat) a + S12x64.size a ≤ S12x64.size a
  h_S12x64 : 0 < S12x64.numel
  transposes_S12x64_p1_0_S64x12 : S12x64.Transposes [1, 0] S64x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S1000x12 : S1x12.Broadcasts S1000x12
  inb_S1000x12_S1000x12_0_0 : ∀ a, (![0, 0] : Fin 2 → Nat) a + S1000x12.size a ≤ S1000x12.size a
  h_S1000x12 : 0 < S1000x12.numel
  gather_S100000x7_S1600000x1_S1600000x7_1_0_n_n_0_1_17_wf : GatherDims.WF S100000x7 S1600000x1 S1600000x7 [1] [0] [] [0] [] 1 ![1, 7]
  dot_S8000x4_S4x7_S8000x7_1_0_0_1_n_n_wf : DotDims.WF S8000x4 S4x7 S8000x7 [1] [0] [0] [1] [] []
  scatter_S100000x7_S1600000x1_S1600000x7_1_0_0_1_wf : ScatterDims.WF S100000x7 S1600000x1 S1600000x7 [1] [0] [0] 1
  dot_S5000x7_S7x64_S5000x64_1_0_0_1_n_n_wf : DotDims.WF S5000x7 S7x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  dot_S8000x4_S4x64_S8000x64_1_0_0_1_n_n_wf : DotDims.WF S8000x4 S4x64 S8000x64 [1] [0] [0] [1] [] []
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x12_S1000x12_1_0_0_1_n_n_wf : DotDims.WF S1000x64 S64x12 S1000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S1600000x4.size a
  hwx0_0 : ∀ i : grid0.Coords, EltTy.bits .f32 = 32 ∨ (Rect.block (s := S1600000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x7.size a ≤ S1600000x7.size a
  hwx0_1 : ∀ i : grid0.Coords, EltTy.bits .f32 = 32 ∨ (Rect.block (s := S1600000x7) S8000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x4.size a ≤ S7x4.size a
  hwx0_2 : ∀ i : grid0.Coords, EltTy.bits .f32 = 32 ∨ (Rect.block (s := S7x4) S7x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x7.size a ≤ S1x7.size a
  hwx0_3 : ∀ i : grid0.Coords, EltTy.bits .f32 = 32 ∨ (Rect.block (s := S1x7) S1x7.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x7.size a ≤ S1600000x7.size a
  hwx0_4 : ∀ i : grid0.Coords, EltTy.bits .f32 = 32 ∨ (Rect.block (s := S1600000x7) S8000x7.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x7.size a ≤ S100000x7.size a
  hwx1_0 : ∀ i : grid1.Coords, EltTy.bits .f32 = 32 ∨ (Rect.block (s := S100000x7) S5000x7.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x7.size a ≤ S100000x7.size a
  hwx1_1 : ∀ i : grid1.Coords, EltTy.bits .f32 = 32 ∨ (Rect.block (s := S100000x7) S5000x7.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x7.size a ≤ S64x7.size a
  hwx1_2 : ∀ i : grid1.Coords, EltTy.bits .f32 = 32 ∨ (Rect.block (s := S64x7) S64x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x4.size a ≤ S1600000x4.size a
  hwx2_0 : ∀ i : grid2.Coords, EltTy.bits .f32 = 32 ∨ (Rect.block (s := S1600000x4) S8000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x4.size a ≤ S64x4.size a
  hwx2_2 : ∀ i : grid2.Coords, EltTy.bits .f32 = 32 ∨ (Rect.block (s := S64x4) S64x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S1600000x64.size a
  hwx2_4 : ∀ i : grid2.Coords, EltTy.bits .f32 = 32 ∨ (Rect.block (s := S1600000x64) S8000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S1000x64.size a
  hwx4_0 : ∀ i : grid4.Coords, EltTy.bits .f32 = 32 ∨ (Rect.block (s := S1000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S12x64.size a ≤ S12x64.size a
  hwx4_1 : ∀ i : grid4.Coords, EltTy.bits .f32 = 32 ∨ (Rect.block (s := S12x64) S12x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x12.size a ≤ S1x12.size a
  hwx4_2 : ∀ i : grid4.Coords, EltTy.bits .f32 = 32 ∨ (Rect.block (s := S1x12) S1x12.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1000x12.size a ≤ S1000x12.size a
  hwx4_3 : ∀ i : grid4.Coords, EltTy.bits .f32 = 32 ∨ (Rect.block (s := S1000x12) S1000x12.size (cc4_transform_3 i) (hinb4_3 i)).WholeWords (EltTy.packing .f32)

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def dot_S8000x4_S4x7_S8000x7_1_0_0_1_n_n : DotDims S8000x4 S4x7 S8000x7 where
  lhsContracting := [1]
  rhsContracting := [0]
  lhsNonContracting := [0]
  rhsNonContracting := [1]
  lhsBatch := []
  rhsBatch := []
  wf := dot_S8000x4_S4x7_S8000x7_1_0_0_1_n_n_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S5000x7_S7x64_S5000x64_1_0_0_1_n_n : DotDims S5000x7 S7x64 S5000x64 where
  lhsContracting := [1]
  rhsContracting := [0]
  lhsNonContracting := [0]
  rhsNonContracting := [1]
  lhsBatch := []
  rhsBatch := []
  wf := dot_S5000x7_S7x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x12_S1000x12_1_0_0_1_n_n : DotDims S1000x64 S64x12 S1000x12 where
  lhsContracting := [1]
  rhsContracting := [0]
  lhsNonContracting := [0]
  rhsNonContracting := [1]
  lhsBatch := []
  rhsBatch := []
  wf := dot_S1000x64_S64x12_S1000x12_1_0_0_1_n_n_wf

abbrev win0_0 : Pipeline.Window sig grid0 :=
  Pipeline.Window.ofSpec (Memref.whole main_arg2) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S7x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x7.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S8000x7.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x7.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S8000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v33) S1000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S12x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x12.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S1000x12.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S1600000x4 : Shape := ⟨2, ![1600000, 4]⟩
abbrev S100000 : Shape := ⟨1, ![100000]⟩
abbrev S7x4 : Shape := ⟨2, ![7, 4]⟩
abbrev S7 : Shape := ⟨1, ![7]⟩
abbrev S64x7 : Shape := ⟨2, ![64, 7]⟩
abbrev S64 : Shape := ⟨1, ![64]⟩
abbrev S64x64 : Shape := ⟨2, ![64, 64]⟩
abbrev S64x4 : Shape := ⟨2, ![64, 4]⟩
abbrev S12x64 : Shape := ⟨2, ![12, 64]⟩
abbrev S12 : Shape := ⟨1, ![12]⟩
abbrev S1x1600000 : Shape := ⟨2, ![1, 1600000]⟩
abbrev S1600000 : Shape := ⟨1, ![1600000]⟩
abbrev S4x7 : Shape := ⟨2, ![4, 7]⟩
abbrev S1600000x7 : Shape := ⟨2, ![1600000, 7]⟩
abbrev S1x7 : Shape := ⟨2, ![1, 7]⟩
abbrev S_ : Shape := ⟨0, ![]⟩
abbrev S1600000x1 : Shape := ⟨2, ![1600000, 1]⟩
abbrev S7x64 : Shape := ⟨2, ![7, 64]⟩
abbrev S100000x64 : Shape := ⟨2, ![100000, 64]⟩
abbrev S1x64 : Shape := ⟨2, ![1, 64]⟩
abbrev S4x64 : Shape := ⟨2, ![4, 64]⟩
abbrev S1600000x64 : Shape := ⟨2, ![1600000, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S64x12 : Shape := ⟨2, ![64, 12]⟩
abbrev S1000x12 : Shape := ⟨2, ![1000, 12]⟩
abbrev S1x12 : Shape := ⟨2, ![1, 12]⟩

abbrev nBuf : Space → Nat
  | .hbm => 127
  | .vmem => 0
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S1600000x4, .f32⟩
  | .hbm, ⟨3, _⟩ => ⟨S100000, .i32⟩
  | .hbm, ⟨4, _⟩ => ⟨S7x4, .f32⟩
  | .hbm, ⟨5, _⟩ => ⟨S7, .f32⟩
  | .hbm, ⟨6, _⟩ => ⟨S64x7, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x4, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S12x64, .f32⟩
  | .hbm, ⟨17, _⟩ => ⟨S12, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S4x7, .f32⟩
  | .hbm, ⟨23, _⟩ => ⟨S1600000x7, .f32⟩
  | .hbm, ⟨24, _⟩ => ⟨S1x7, .f32⟩
  | .hbm, ⟨25, _⟩ => ⟨S1600000x7, .f32⟩
  | .hbm, ⟨26, _⟩ => ⟨S1600000x7, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x7, .f32⟩
  | .hbm, ⟨36, _⟩ => ⟨S1600000x7, .f32⟩
  | .hbm, ⟨37, _⟩ => ⟨S_, .f32⟩
  | .hbm, ⟨38, _⟩ => ⟨S1600000x7, .f32⟩
  | .hbm, ⟨39, _⟩ => ⟨S1600000x7, .f32⟩
  | .hbm, ⟨40, _⟩ => ⟨S_, .f32⟩
  | .hbm, ⟨41, _⟩ => ⟨S100000x7, .f32⟩
  | .hbm, ⟨42, _⟩ => ⟨S1600000x1, .i32⟩
  | .hbm, ⟨43, _⟩ => ⟨S100000x7, .f32⟩
  | .hbm, ⟨44, _⟩ => ⟨S_, .f32⟩
  | .hbm, ⟨45, _⟩ => ⟨S100000x7, .f32⟩
  | .hbm, ⟨46, _⟩ => ⟨S100000x7, .f32⟩
  | .hbm, ⟨47, _⟩ => ⟨S100000x7, .f32⟩
  | .hbm, ⟨48, _⟩ => ⟨S7x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S64x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S4x64, .f32⟩
  | .hbm, ⟨65, _⟩ => ⟨S1600000x64, .f32⟩
  | .hbm, ⟨66, _⟩ => ⟨S1x64, .f32⟩
  | .hbm, ⟨67, _⟩ => ⟨S1600000x64, .f32⟩
  | .hbm, ⟨68, _⟩ => ⟨S1600000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S1600000x64, .f32⟩
  | .hbm, ⟨79, _⟩ => ⟨S_, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S64x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S64x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S1000x64, .f32⟩
  | .hbm, ⟨108, _⟩ => ⟨S100000x1, .i32⟩
  | .hbm, ⟨109, _⟩ => ⟨S1000x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S1000, .f32⟩
  | .hbm, ⟨114, _⟩ => ⟨S100000x1, .i32⟩
  | .hbm, ⟨115, _⟩ => ⟨S1000, .f32⟩
  | .hbm, ⟨116, _⟩ => ⟨S_, .f32⟩
  | .hbm, ⟨117, _⟩ => ⟨S1000, .f32⟩
  | .hbm, ⟨118, _⟩ => ⟨S1000, .f32⟩
  | .hbm, ⟨119, _⟩ => ⟨S1000x1, .f32⟩
  | .hbm, ⟨120, _⟩ => ⟨S1000x64, .f32⟩
  | .hbm, ⟨121, _⟩ => ⟨S1000x64, .f32⟩
  | .hbm, ⟨122, _⟩ => ⟨S64x12, .f32⟩
  | .hbm, ⟨123, _⟩ => ⟨S1000x12, .f32⟩
  | .hbm, ⟨124, _⟩ => ⟨S1x12, .f32⟩
  | .hbm, ⟨125, _⟩ => ⟨S1000x12, .f32⟩
  | .hbm, ⟨126, _⟩ => ⟨S1000x12, .f32⟩
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call0_cst : Ref sig .tc := ⟨.hbm, 37, rfl⟩
abbrev main_call0_v0 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_cst : Ref sig .tc := ⟨.hbm, 53, rfl⟩
abbrev main_call1_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call2_cst : Ref sig .tc := ⟨.hbm, 61, rfl⟩
abbrev main_call2_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_2 : Ref sig .tc := ⟨.hbm, 69, rfl⟩
abbrev main_v41 : Ref sig .tc := ⟨.hbm, 70, rfl⟩
abbrev main_v42 : Ref sig .tc := ⟨.hbm, 71, rfl⟩
abbrev main_c_3 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call3_cst : Ref sig .tc := ⟨.hbm, 79, rfl⟩
abbrev main_call3_v0 : Ref sig .tc := ⟨.hbm, 80, rfl⟩
abbrev main_v49 : Ref sig .tc := ⟨.hbm, 81, rfl⟩
abbrev main_cst_4 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call4_cst : Ref sig .tc := ⟨.hbm, 95, rfl⟩
abbrev main_call4_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call5_cst : Ref sig .tc := ⟨.hbm, 103, rfl⟩
abbrev main_call5_v0 : Ref sig .tc := ⟨.hbm, 104, rfl⟩
abbrev main_v67 : Ref sig .tc := ⟨.hbm, 105, rfl⟩
abbrev main_cst_6 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_7 : Ref sig .tc := ⟨.hbm, 110, rfl⟩
abbrev main_v71 : Ref sig .tc := ⟨.hbm, 111, rfl⟩
abbrev main_cst_8 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_9 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S7x4_S4x7_1_0 : S7x4.Transposes [1, 0] S4x7
  bcast_S7_S1x7_1 : S7.BroadcastsInDim S1x7 (![1] : Fin 1 → Fin S1x7.rank)
  bcast_S1x7_S1600000x7_0_1 : S1x7.BroadcastsInDim S1600000x7 (![0, 1] : Fin 2 → Fin S1600000x7.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x7 : S_.BroadcastsInDim S1600000x7 (![] : Fin 0 → Fin S1600000x7.rank)
  bcast_S_S100000x7 : S_.BroadcastsInDim S100000x7 (![] : Fin 0 → Fin S100000x7.rank)
  transposes_S64x7_S7x64_1_0 : S64x7.Transposes [1, 0] S7x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  transposes_S64x4_S4x64_1_0 : S64x4.Transposes [1, 0] S4x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  transposes_S12x64_S64x12_1_0 : S12x64.Transposes [1, 0] S64x12
  bcast_S12_S1x12_1 : S12.BroadcastsInDim S1x12 (![1] : Fin 1 → Fin S1x12.rank)
  bcast_S1x12_S1000x12_0_1 : S1x12.BroadcastsInDim S1000x12 (![0, 1] : Fin 2 → Fin S1000x12.rank)
  dot_S1600000x4_S4x7_S1600000x7_1_0_0_1_n_n_wf : DotDims.WF S1600000x4 S4x7 S1600000x7 [1] [0] [0] [1] [] []
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x64_S100000x64_1_0_0_1_n_n_wf : DotDims.WF S100000x7 S7x64 S100000x64 [1] [0] [0] [1] [] []
  dot_S100000x64_S64x64_S100000x64_1_0_0_1_n_n_wf : DotDims.WF S100000x64 S64x64 S100000x64 [1] [0] [0] [1] [] []
  dot_S1600000x4_S4x64_S1600000x64_1_0_0_1_n_n_wf : DotDims.WF S1600000x4 S4x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x12_S1000x12_1_0_0_1_n_n_wf : DotDims.WF S1000x64 S64x12 S1000x12 [1] [0] [0] [1] [] []

variable [Facts₀]

def dot_S1600000x4_S4x7_S1600000x7_1_0_0_1_n_n : DotDims S1600000x4 S4x7 S1600000x7 where
  lhsContracting := [1]
  rhsContracting := [0]
  lhsNonContracting := [0]
  rhsNonContracting := [1]
  lhsBatch := []
  rhsBatch := []
  wf := dot_S1600000x4_S4x7_S1600000x7_1_0_0_1_n_n_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x4_S4x64_S1600000x64_1_0_0_1_n_n : DotDims S1600000x4 S4x64 S1600000x64 where
  lhsContracting := [1]
  rhsContracting := [0]
  lhsNonContracting := [0]
  rhsNonContracting := [1]
  lhsBatch := []
  rhsBatch := []
  wf := dot_S1600000x4_S4x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x12_S1000x12_1_0_0_1_n_n : DotDims S1000x64 S64x12 S1000x12 where
  lhsContracting := [1]
  rhsContracting := [0]
  lhsNonContracting := [0]
  rhsNonContracting := [1]
  lhsBatch := []
  rhsBatch := []
  wf := dot_S1000x64_S64x12_S1000x12_1_0_0_1_n_n_wf

class Facts : Prop extends Facts₀ where

variable [Facts]
-- ==== Proof.Layers.lean ====
/-
  The three layer formulas of a two-layer message-passing network with a mean-pooled linear head, as functions on
  arrays of extended reals, index by index. Every sum is a finite sum over one row of a weight matrix; nothing here
  depends on how a program tiles the rows.

  * `affine a W b` : row `r`, column `j` ↦ (∑ₖ a[r,k] · W[j,k]) + b[j]   (a linear layer, the weight stored out × in)
  * `edgeMessage`   : relu (x_src + affine edge_attr W b)                    (one message per edge)
  * `nodeUpdate`    : relu (affine (relu (affine (x + aggr) W₁ b₁)) W₂ b₂)   (the node's two-layer perceptron, outer relu in)
  * `head`          : affine pooled W b                                      (the final linear layer)
-/
import Idealize.ShloMosaic.PureOps.Ideal
import Idealize.ShloMosaic.Lib.ValueIdx

noncomputable section

open scoped BigOperators
open Idealize.ShloMosaic Idealize.ShloMosaic.ValueIdx

namespace Cert.MessagePassing

/-- A matrix of extended reals with `r` rows and `c` columns. -/
abbrev Mat (r c : Nat) : Type := (⟨2, ![r, c]⟩ : Shape).Idx → EReal
/-- A vector of extended reals of length `n`. -/
abbrev Row (n : Nat) : Type := (⟨1, ![n]⟩ : Shape).Idx → EReal

/-- A linear layer applied to every row: entry `(r, j)` is the dot product of row `r` of `a` with row `j` of the
    weight matrix (stored out × in), plus the bias at `j`. -/
def affine {R K D : Nat} (a : Mat R K) (W : Mat D K) (b : Row D) : Mat R D :=
  fun i => (∑ k : Fin K, a (ix2 (i 0) k) * W (ix2 (i 1) k)) + b (ix1 (i 1))

theorem affine_apply {R K D : Nat} (a : Mat R K) (W : Mat D K) (b : Row D) (r : Fin R) (j : Fin D) :
    affine a W b (ix2 r j) = (∑ k : Fin K, a (ix2 r k) * W (ix2 j k)) + b (ix1 j) := rfl

/-- The message of an edge: the source node's features plus the projected edge attributes, clipped below at zero. -/
def edgeMessage {E K D : Nat} (ea : Mat E K) (xs : Mat E D) (W : Mat D K) (b : Row D) : Mat E D :=
  fun i => max (xs i + affine ea W b i) 0

theorem edgeMessage_apply {E K D : Nat} (ea : Mat E K) (xs : Mat E D) (W : Mat D K) (b : Row D) (e : Fin E) (j : Fin D) :
    edgeMessage ea xs W b (ix2 e j) = max (xs (ix2 e j) + ((∑ k : Fin K, ea (ix2 e k) * W (ix2 j k)) + b (ix1 j))) 0 := rfl

/-- The hidden activations of a node's perceptron: relu of the first linear layer at the node's features plus its
    aggregated messages. -/
def hidden {N Din H : Nat} (x aggr : Mat N Din) (W1 : Mat H Din) (b1 : Row H) : Mat N H :=
  fun i => max (affine (fun i' => x i' + aggr i') W1 b1 i) 0

theorem hidden_apply {N Din H : Nat} (x aggr : Mat N Din) (W1 : Mat H Din) (b1 : Row H) (n : Fin N) (k : Fin H) :
    hidden x aggr W1 b1 (ix2 n k)
      = max ((∑ i : Fin Din, (x (ix2 n i) + aggr (ix2 n i)) * W1 (ix2 k i)) + b1 (ix1 k)) 0 := rfl

/-- A node's update: the second linear layer at the hidden activations, clipped below at zero. -/
def nodeUpdate {N Din H : Nat} (x aggr : Mat N Din) (W1 : Mat H Din) (b1 : Row H) (W2 : Mat H H) (b2 : Row H) : Mat N H :=
  fun i => max (affine (hidden x aggr W1 b1) W2 b2 i) 0

theorem nodeUpdate_apply {N Din H : Nat} (x aggr : Mat N Din) (W1 : Mat H Din) (b1 : Row H) (W2 : Mat H H) (b2 : Row H)
    (n : Fin N) (j : Fin H) :
    nodeUpdate x aggr W1 b1 W2 b2 (ix2 n j)
      = max ((∑ k : Fin H, hidden x aggr W1 b1 (ix2 n k) * W2 (ix2 j k)) + b2 (ix1 j)) 0 := rfl

/-- The head: one linear layer at the pooled features. -/
def head {G H T : Nat} (p : Mat G H) (W : Mat T H) (b : Row T) : Mat G T := affine p W b

theorem head_apply {G H T : Nat} (p : Mat G H) (W : Mat T H) (b : Row T) (g : Fin G) (j : Fin T) :
    head p W b (ix2 g j) = (∑ k : Fin H, p (ix2 g k) * W (ix2 j k)) + b (ix1 j) := rfl

end Cert.MessagePassing

end
-- ==== Proof.HostOps.lean ====
/-
  The host operations that the two programs share, written once.

  Both programs read the source and target rows of the edge list the same way, wrap a negative source index the same
  way (NumPy's rule: add the number of nodes), gather the source nodes' rows, add every edge's message into its
  target node's row, and pool the node features of each graph by their mean. None of these is opened here: each is the
  host operation itself, named, so that the two programs' terms can be compared as one.

  The one difference between the programs lives here too: the kernel's row gather masks the rows whose wrapped index
  is out of range with a fill value, the reference's does not. `rowsOrFill` is the masked form and `rows` the
  plain one; `rowsOrFill_eq` says they agree when every wrapped index is in range.
-/
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import Idealize.ShloMosaic.Lib.ReduceAll
import Idealize.ShloMosaic.Lib.Affine
import proofs.«400220_j12919261627156_1_alg».proof.Proof.Layers

noncomputable section

open scoped BigOperators
open Idealize.ShloMosaic Idealize.ShloMosaic.ValueIdx

namespace Cert.MessagePassing

/-! ## Shapes -/

abbrev SEdgeList : Shape := ⟨2, ![2, 1600000]⟩
abbrev SEdgeRow : Shape := ⟨2, ![1, 1600000]⟩
abbrev SEdges : Shape := ⟨1, ![1600000]⟩
abbrev SEdgeCol : Shape := ⟨2, ![1600000, 1]⟩
abbrev SNodes : Shape := ⟨1, ![100000]⟩
abbrev SNodeCol : Shape := ⟨2, ![100000, 1]⟩
abbrev SGraphs : Shape := ⟨1, ![1000]⟩
abbrev SGraphCol : Shape := ⟨2, ![1000, 1]⟩
abbrev SScalar : Shape := ⟨0, ![]⟩
abbrev SNodeFeat (d : Nat) : Shape := ⟨2, ![100000, d]⟩
abbrev SEdgeFeat (d : Nat) : Shape := ⟨2, ![1600000, d]⟩
abbrev SGraphFeat : Shape := ⟨2, ![1000, 64]⟩

/-! ## The edge list's two rows -/

theorem slices_row0 : SEdgeList.Slices ![0, 0] SEdgeRow := by decide
theorem slices_row1 : SEdgeList.Slices ![1, 0] SEdgeRow := by decide
theorem casts_row : SEdgeRow.ShapeCasts SEdges := by decide

/-- Row 0 of the edge list: every edge's source node. -/
def sourceRow (ei : IVec SEdgeList 32) : IVec SEdges 32 :=
  shapeCast SEdges (extractStridedSlice SEdgeRow ![0, 0] ei slices_row0) casts_row
/-- Row 1 of the edge list: every edge's target node. -/
def targetRow (ei : IVec SEdgeList 32) : IVec SEdges 32 :=
  shapeCast SEdges (extractStridedSlice SEdgeRow ![1, 0] ei slices_row1) casts_row

/-! ## The wrapped start index, and the row gather -/

theorem bcast_scalar_edges : SScalar.BroadcastsInDim SEdges (![] : Fin 0 → Fin SEdges.rank) := by decide
theorem bcast_edges_col : SEdges.BroadcastsInDim SEdgeCol (![0] : Fin 1 → Fin SEdgeCol.rank) := by decide
theorem bcast_scalar_col : SScalar.BroadcastsInDim SEdgeCol (![] : Fin 0 → Fin SEdgeCol.rank) := by decide
theorem bcast_one_oneone : (⟨1, ![1]⟩ : Shape).BroadcastsInDim ⟨2, ![1, 1]⟩ (![1] : Fin 1 → Fin 2) := by decide
theorem bcast_oneone_col : (⟨2, ![1, 1]⟩ : Shape).BroadcastsInDim SEdgeCol (![0, 1] : Fin 2 → Fin SEdgeCol.rank) := by decide
theorem reduces_col : SEdgeCol.ReducesTo [1] SEdges := by decide
theorem scalar_pos : 0 < SScalar.numel := by decide

/-- A source index with NumPy's wrap of a negative index: `s + 100000` where `s < 0`, else `s`. -/
def wrapped (src : IVec SEdges 32) : IVec SEdges 32 :=
  select (cmpi .slt src (broadcastInDim SEdges ![] bcast_scalar_edges (constantI SScalar 32 0#32)))
    (addi src (broadcastInDim SEdges ![] bcast_scalar_edges (constantI SScalar 32 100000#32))) src
/-- The wrapped source indices as the one-column array of start indices a row gather takes. -/
def startCol (src : IVec SEdges 32) : IVec SEdgeCol 32 :=
  broadcastInDim SEdgeCol ![0] bcast_edges_col (wrapped src)

/-- The dimension numbers of a gather of whole rows of a `[100000, d]` array at `1600000` start indices. -/
def rowGather (d : Nat) (wf : GatherDims.WF (SNodeFeat d) SEdgeCol (SEdgeFeat d) [1] [0] [] [0] [] 1 ![1, d]) :
    GatherDims (SNodeFeat d) SEdgeCol (SEdgeFeat d) where
  offsetDims := [1]
  collapsedSliceDims := [0]
  operandBatchingDims := []
  startIndicesBatchingDims := []
  startIndexMap := [0]
  indexVectorDim := 1
  sliceSizes := ![1, d]
  wf := wf

theorem rowGather7_wf : GatherDims.WF (SNodeFeat 7) SEdgeCol (SEdgeFeat 7) [1] [0] [] [0] [] 1 ![1, 7] := by decide
theorem rowGather64_wf : GatherDims.WF (SNodeFeat 64) SEdgeCol (SEdgeFeat 64) [1] [0] [] [0] [] 1 ![1, 64] := by decide

/-- Every edge's source row of `x`, the start index clamped into range by the gather itself. -/
def rows {d : Nat} (wf : GatherDims.WF (SNodeFeat d) SEdgeCol (SEdgeFeat d) [1] [0] [] [0] [] 1 ![1, d])
    (x : FVec Ideal (SNodeFeat d) .f32) (src : IVec SEdges 32) : FVec Ideal (SEdgeFeat d) .f32 :=
  Host.gather (rowGather d wf) x (startCol src)

/-- Which edges' wrapped source index lies in `[0, 99999]`. -/
def inRange (src : IVec SEdges 32) : IVec SEdges 1 :=
  Host.reduce IntOp.andi
    (andi (cmpi .sge (startCol src) (broadcastInDim SEdgeCol ![] bcast_scalar_col (constantI SScalar 32 0#32)))
      (cmpi .sle (startCol src) (broadcastInDim SEdgeCol ![0, 1] bcast_oneone_col
        (broadcastInDim ⟨2, ![1, 1]⟩ ![1] bcast_one_oneone (constantI ⟨1, ![1]⟩ 32 99999#32)))))
    (constantI SScalar 1 1#1) reduces_col scalar_pos

/-- The same gather with every out-of-range edge's row replaced by the fill value. -/
def rowsOrFill {d : Nat} (wf : GatherDims.WF (SNodeFeat d) SEdgeCol (SEdgeFeat d) [1] [0] [] [0] [] 1 ![1, d])
    (hm : SEdges.BroadcastsInDim (SEdgeFeat d) (![0] : Fin 1 → Fin (SEdgeFeat d).rank))
    (hf : SScalar.BroadcastsInDim (SEdgeFeat d) (![] : Fin 0 → Fin (SEdgeFeat d).rank))
    (x : FVec Ideal (SNodeFeat d) .f32) (src : IVec SEdges 32) : FVec Ideal (SEdgeFeat d) .f32 :=
  select (broadcastInDim (SEdgeFeat d) ![0] hm (inRange src)) (rows wf x src)
    (broadcastInDim (SEdgeFeat d) ![] hf (constant SScalar .f32 0x7FC00000#32))

/-! ## The segment sums and the mean pool -/

/-- The dimension numbers of a scatter of whole rows into a `[n, d]` array at `k` one-element indices. -/
def rowScatter (n k d : Nat) (wf : ScatterDims.WF ⟨2, ![n, d]⟩ ⟨2, ![k, 1]⟩ ⟨2, ![k, d]⟩ [1] [0] [0] 1) :
    ScatterDims ⟨2, ![n, d]⟩ ⟨2, ![k, 1]⟩ ⟨2, ![k, d]⟩ where
  updateWindowDims := [1]
  insertedWindowDims := [0]
  scatterDimsToOperandDims := [0]
  indexVectorDim := 1
  wf := wf

theorem nodeScatter7_wf : ScatterDims.WF (SNodeFeat 7) SEdgeCol (SEdgeFeat 7) [1] [0] [0] 1 := by decide
theorem nodeScatter64_wf : ScatterDims.WF (SNodeFeat 64) SEdgeCol (SEdgeFeat 64) [1] [0] [0] 1 := by decide
theorem graphScatter_wf : ScatterDims.WF SGraphFeat SNodeCol (SNodeFeat 64) [1] [0] [0] 1 := by decide

/-- Every edge's message added into its target node's row, from zero. -/
def sumAtTargets {d : Nat} (wf : ScatterDims.WF (SNodeFeat d) SEdgeCol (SEdgeFeat d) [1] [0] [0] 1)
    (hz : SScalar.BroadcastsInDim (SNodeFeat d) (![] : Fin 0 → Fin (SNodeFeat d).rank))
    (dst : IVec SEdges 32) (msg : FVec Ideal (SEdgeFeat d) .f32) : FVec Ideal (SNodeFeat d) .f32 :=
  Host.scatterAdd (rowScatter 100000 1600000 d wf)
    (broadcastInDim (SNodeFeat d) ![] hz (constant SScalar .f32 0x00000000#32))
    (broadcastInDim SEdgeCol ![0] bcast_edges_col dst) msg

theorem bcast_scalar_graphfeat : SScalar.BroadcastsInDim SGraphFeat (![] : Fin 0 → Fin SGraphFeat.rank) := by decide
theorem bcast_nodes_col : SNodes.BroadcastsInDim SNodeCol (![0] : Fin 1 → Fin SNodeCol.rank) := by decide
theorem bcast_scalar_nodes : SScalar.BroadcastsInDim SNodes (![] : Fin 0 → Fin SNodes.rank) := by decide
theorem bcast_scalar_graphs : SScalar.BroadcastsInDim SGraphs (![] : Fin 0 → Fin SGraphs.rank) := by decide
theorem bcast_graphs_col : SGraphs.BroadcastsInDim SGraphCol (![0] : Fin 1 → Fin SGraphCol.rank) := by decide
theorem bcast_col_graphfeat : SGraphCol.BroadcastsInDim SGraphFeat (![0, 1] : Fin 2 → Fin SGraphFeat.rank) := by decide

/-- The dimension numbers of a scatter of single elements into a vector of `1000` at `100000` one-element indices. -/
def countScatter (wf : ScatterDims.WF SGraphs SNodeCol SNodes [] [0] [0] 1) : ScatterDims SGraphs SNodeCol SNodes where
  updateWindowDims := []
  insertedWindowDims := [0]
  scatterDimsToOperandDims := [0]
  indexVectorDim := 1
  wf := wf
theorem countScatter_wf : ScatterDims.WF SGraphs SNodeCol SNodes [] [0] [0] 1 := by decide

/-- Each graph's mean node feature: the sum of its nodes' rows over the number of its nodes (at least one). -/
def meanPool (batch : IVec SNodes 32) (h : FVec Ideal (SNodeFeat 64) .f32) : FVec Ideal SGraphFeat .f32 :=
  Host.divf
    (Host.scatterAdd (rowScatter 1000 100000 64 graphScatter_wf)
      (broadcastInDim SGraphFeat ![] bcast_scalar_graphfeat (constant SScalar .f32 0x00000000#32))
      (broadcastInDim SNodeCol ![0] bcast_nodes_col batch) h)
    (broadcastInDim SGraphFeat ![0, 1] bcast_col_graphfeat
      (broadcastInDim SGraphCol ![0] bcast_graphs_col
        (maximumf
          (Host.scatterAdd (countScatter countScatter_wf)
            (broadcastInDim SGraphs ![] bcast_scalar_graphs (constant SScalar .f32 0x00000000#32))
            (broadcastInDim SNodeCol ![0] bcast_nodes_col batch)
            (broadcastInDim SNodes ![] bcast_scalar_nodes (constant SScalar .f32 0x3F800000#32)))
          (broadcastInDim SGraphs ![] bcast_scalar_graphs (constant SScalar .f32 0x3F800000#32)))))

/-! ## The network -/

theorem zero7 : SScalar.BroadcastsInDim (SNodeFeat 7) (![] : Fin 0 → Fin (SNodeFeat 7).rank) := by decide
theorem zero64 : SScalar.BroadcastsInDim (SNodeFeat 64) (![] : Fin 0 → Fin (SNodeFeat 64).rank) := by decide
theorem mask7 : SEdges.BroadcastsInDim (SEdgeFeat 7) (![0] : Fin 1 → Fin (SEdgeFeat 7).rank) := by decide
theorem mask64 : SEdges.BroadcastsInDim (SEdgeFeat 64) (![0] : Fin 1 → Fin (SEdgeFeat 64).rank) := by decide
theorem fill7 : SScalar.BroadcastsInDim (SEdgeFeat 7) (![] : Fin 0 → Fin (SEdgeFeat 7).rank) := by decide
theorem fill64 : SScalar.BroadcastsInDim (SEdgeFeat 64) (![] : Fin 0 → Fin (SEdgeFeat 64).rank) := by decide

/-- A bias stored as a one-row matrix, read as a vector. -/
def rowOf {D : Nat} (b : Mat 1 D) : Row D := fun j => b (ix2 (0 : Fin 1) (j 0))

/-- A vector cast to a one-row matrix and read back is the vector. -/
theorem rowOf_shapeCast {D : Nat} (b : Row D) (h : (⟨1, ![D]⟩ : Shape).ShapeCasts ⟨2, ![1, D]⟩) :
    rowOf (shapeCast ⟨2, ![1, D]⟩ b h) = b := by
  funext j
  obtain ⟨q, rfl⟩ : ∃ q : Fin D, j = ix1 q := ⟨j 0, eq_ix1 j⟩
  exact shapeCast_a_1a_apply b h (0 : Fin 1) q

/-- The first layer: the nodes' features after one round of messages. -/
def layer1 (x : Mat 100000 7) (ei : IVec SEdgeList 32) (ea : Mat 1600000 4) (eW : Mat 7 4) (eb : Row 7)
    (W1 : Mat 64 7) (b1 : Row 64) (W2 : Mat 64 64) (b2 : Row 64) : Mat 100000 64 :=
  nodeUpdate x (sumAtTargets nodeScatter7_wf zero7 (targetRow ei)
    (edgeMessage ea (rows rowGather7_wf x (sourceRow ei)) eW eb)) W1 b1 W2 b2

/-- The second layer, on the first layer's features. -/
def layer2 (h : Mat 100000 64) (ei : IVec SEdgeList 32) (ea : Mat 1600000 4) (eW : Mat 64 4) (eb : Row 64)
    (W1 : Mat 64 64) (b1 : Row 64) (W2 : Mat 64 64) (b2 : Row 64) : Mat 100000 64 :=
  nodeUpdate h (sumAtTargets nodeScatter64_wf zero64 (targetRow ei)
    (edgeMessage ea (rows rowGather64_wf h (sourceRow ei)) eW eb)) W1 b1 W2 b2

/-- The whole network: two layers, the mean pool over each graph, the linear head. -/
def network (x : Mat 100000 7) (ei : IVec SEdgeList 32) (ea : Mat 1600000 4) (batch : IVec SNodes 32)
    (e1W : Mat 7 4) (e1b : Row 7) (n1W1 : Mat 64 7) (n1b1 : Row 64) (n1W2 : Mat 64 64) (n1b2 : Row 64)
    (e2W : Mat 64 4) (e2b : Row 64) (n2W1 : Mat 64 64) (n2b1 : Row 64) (n2W2 : Mat 64 64) (n2b2 : Row 64)
    (fcW : Mat 12 64) (fcb : Row 12) : Mat 1000 12 :=
  head (meanPool batch (layer2 (layer1 x ei ea e1W e1b n1W1 n1b1 n1W2 n1b2) ei ea e2W e2b n2W1 n2b1 n2W2 n2b2)) fcW fcb

end Cert.MessagePassing

end
-- ==== Proof.InRange.lean ====
/-
  The in-range precondition, used.

  Two halves. The claim's precondition ends in a conjunction, over all edges, of 0 ≤ s and s < 100000 for the source
  index s of each edge; read back, it gives those two bounds at every edge. And under those bounds the kernel's masked
  row gather is the reference's plain one.

  The kernel's row gather replaces by a fill value every row whose wrapped source index falls outside [0, 99999]; the
  reference's does not. When every source index already lies in [0, 100000) the wrap leaves it alone, both range tests
  hold at every edge, the conjunction over the one-element axis is 1, and the masked gather is the plain one.
-/
import proofs.«400220_j12919261627156_1_alg».proof.Proof.HostOps
import proofs.«400220_j12919261627156_1_alg».proof.Defs
import proofs.«400220_j12919261627156_1_alg».proof.Proof.Gen.Pre_finite_inputs
import Idealize.ShloMosaic.Lib.ReduceAll

noncomputable section

open Idealize.ShloMosaic Idealize.ShloMosaic.TcCoe Idealize.SL.Sem Idealize.ShloMosaic.ValueIdx

namespace Cert.MessagePassing

/-- A left fold of `and` from 1 over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l fun n hn => h n (List.mem_cons_of_mem _ hn)

/-- A word in [0, 100000) passes both range tests. -/
theorem tests_one (w : BitVec 32) (h0 : 0 ≤ w.toInt) (h1 : w.toInt < 100000) :
    IntOp.andi (IntOp.cmpi .sge w 0#32) (IntOp.cmpi .sle w 99999#32) = 1#1 := by
  have z : (0#32 : BitVec 32).toInt = 0 := by decide
  have n : (99999#32 : BitVec 32).toInt = 99999 := by decide
  refine IntOp.andi_eq_one.2 ⟨IntOp.cmpi_sge.2 ?_, IntOp.cmpi_sle.2 ?_⟩
  · rw [z]; exact h0
  · rw [n]; omega

/-- Nonnegative source indices are not wrapped. -/
theorem wrapped_eq (src : IVec SEdges 32) (h : ∀ e : SEdges.Idx, 0 ≤ (src e).toInt ∧ (src e).toInt < 100000) :
    wrapped src = src := by
  funext e
  unfold wrapped
  rw [select_apply]
  have hc : cmpi .slt src (broadcastInDim SEdges ![] bcast_scalar_edges (constantI SScalar 32 0#32)) e = 0#1 := by
    refine eq_zero_of_ne_one fun hlt => ?_
    have hlt' : (src e).toInt < (0#32 : BitVec 32).toInt := IntOp.cmpi_slt.1 hlt
    rw [show (0#32 : BitVec 32).toInt = 0 from by decide] at hlt'
    exact absurd (h e).1 (by omega)
  rw [hc, select_zero]

/-- With every source index in [0, 100000) every edge is in range. -/
theorem inRange_eq_one (src : IVec SEdges 32) (h : ∀ e : SEdges.Idx, 0 ≤ (src e).toInt ∧ (src e).toInt < 100000)
    (e : SEdges.Idx) : inRange src e = 1#1 := by
  unfold inRange startCol
  rw [wrapped_eq src h, Host.reduce_eq_foldl]
  refine foldl_andi_ones _ _ fun i _ => ?_
  show IntOp.andi (IntOp.cmpi .sge (src _) 0#32) (IntOp.cmpi .sle (src _) 99999#32) = 1#1
  exact tests_one _ (h _).1 (h _).2

/-- With every source index in [0, 100000) no row is replaced by the fill value. -/
theorem rowsOrFill_eq {d : Nat} (wf : GatherDims.WF (SNodeFeat d) SEdgeCol (SEdgeFeat d) [1] [0] [] [0] [] 1 ![1, d])
    (hm : SEdges.BroadcastsInDim (SEdgeFeat d) (![0] : Fin 1 → Fin (SEdgeFeat d).rank))
    (hf : SScalar.BroadcastsInDim (SEdgeFeat d) (![] : Fin 0 → Fin (SEdgeFeat d).rank))
    (x : FVec Ideal (SNodeFeat d) .f32) (src : IVec SEdges 32)
    (h : ∀ e : SEdges.Idx, 0 ≤ (src e).toInt ∧ (src e).toInt < 100000) :
    rowsOrFill wf hm hf x src = rows wf x src := by
  funext j
  unfold rowsOrFill
  rw [select_apply]
  have hb : broadcastInDim (SEdgeFeat d) ![0] hm (inRange src) j = 1#1 := by
    show inRange src _ = 1#1
    exact inRange_eq_one src h _
  rw [hb, select_one]

end Cert.MessagePassing

namespace Cert.KernelIdeal.InRange

open Cert.KernelIdeal Cert.MessagePassing

/-- The scalar shape has one index. -/
instance : Subsingleton Cert.Pre_finite_inputs.S_.Idx := ⟨fun a b => funext fun d => d.elim0⟩

/-- The precondition's last conjunct, read back: every source index of the edge list is in [0, 100000). -/
theorem source_inRange (m : (ℓ : Loc nD τ sig) → Buf (Elt Ideal) ℓ)
    (hpre : Cert.Pre_KernelIdeal (hPre_finite_inputs := Cert.Pre_finite_inputs.Gen.facts) m) (c : Dev nD) :
    ∀ e : SEdges.Idx, 0 ≤ (sourceRow (m ((c.tc : Thread nD τ).loc main_arg1)) e).toInt
      ∧ (sourceRow (m ((c.tc : Thread nD τ).loc main_arg1)) e).toInt < 100000 := by
  intro e
  have h0 := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- the whole predicate is a conjunction whose last conjunct is the one about the source indices
  change IntOp.andi _ _ = 1#1 at h0
  obtain ⟨-, h1⟩ := IntOp.andi_eq_one.1 h0
  -- that conjunct is a conjunction over all edges: take the edge `e`
  have h2 := Host.reduce_andi_all _ _ _ _ _ h1 e
  change IntOp.andi (IntOp.cmpi .sge (sourceRow (m ((c.tc : Thread nD τ).loc main_arg1)) e) 0#32)
    (IntOp.cmpi .slt (sourceRow (m ((c.tc : Thread nD τ).loc main_arg1)) e) 100000#32) = 1#1 at h2
  obtain ⟨h3, h4⟩ := IntOp.andi_eq_one.1 h2
  have h3' := IntOp.cmpi_sge.1 h3
  have h4' := IntOp.cmpi_slt.1 h4
  rw [show (0#32 : BitVec 32).toInt = 0 from by decide] at h3'
  rw [show (100000#32 : BitVec 32).toInt = 100000 from by decide] at h4'
  exact ⟨h3', h4'⟩

end Cert.KernelIdeal.InRange

end
-- ==== Proof.PlainDot.lean ====
/-
  A matrix product with the plain dimension numbers (rows × contraction times contraction × columns), read at one
  entry of the result as a finite sum over the contraction coordinate; and the same against a weight matrix that is
  stored transposed (out × in) and transposed on the way in.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.MessagePassing

variable {M K N : Nat}

/-- The left operand's index at result entry `(p, q)` and contraction coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  funext a
  refine Fin.ext ?_
  match a with
  | ⟨0, _⟩ => rfl
  | ⟨1, _⟩ =>
    exact (DotDims.lhsIdx_val_of_single (d := DotDims.plain M K N) (cl := (1 : Fin 2)) rfl _ _).trans
      (contrEquiv1_symm_val (DotDims.plain M K N) K rfl rfl k)

/-- The right operand's index at result entry `(p, q)` and contraction coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  funext a
  refine Fin.ext ?_
  match a with
  | ⟨0, _⟩ =>
    exact (DotDims.rhsIdx_val_of_single (d := DotDims.plain M K N) (cr := (0 : Fin 2)) rfl _ _).trans
      (contrEquiv1_symm_val (DotDims.plain M K N) K rfl rfl k)
  | ⟨1, _⟩ => rfl

/-- A plain matrix product into a zero accumulator, at entry `(p, q)`: the sum over `k` of `l[p,k] · r[k,q]`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MessagePassing

end
-- ==== Proof.RefLayers.lean ====
/-
  The reference program's result as the layer formulas of its arguments.

  The reference computes every linear layer as a matrix product against the transposed weight matrix plus the bias
  broadcast down the rows, every relu as a maximum with a broadcast zero, and scales the node features by a
  broadcast one before adding the aggregated messages. Read index by index these are the layer formulas
  (`affine`, a maximum with zero, the identity), and the gathers, the segment sums and the mean pool are the
  host operations themselves; so the whole result is `network` of the arguments.
-/
import proofs.«400220_j12919261627156_1_alg».proof.Proof.Gen.ReferenceIdeal.Run
import proofs.«400220_j12919261627156_1_alg».proof.Proof.Layers
import proofs.«400220_j12919261627156_1_alg».proof.Proof.PlainDot
import proofs.«400220_j12919261627156_1_alg».proof.Proof.HostOps
import Idealize.ShloMosaic.Lib.IdealHost
import Idealize.ShloMosaic.Lib.KernelVsHost
import Idealize.ShloMosaic.Lib.StackMember

set_option maxRecDepth 16384

noncomputable section

open scoped BigOperators
open Idealize.ShloMosaic Idealize.ShloMosaic.TcCoe Idealize.SL.Sem Idealize.ShloMosaic.ValueIdx

namespace Cert.ReferenceIdeal.RefLayers

open Cert.ReferenceIdeal Cert.ReferenceIdeal.Gen Cert.MessagePassing

/-! ## The three patterns -/

section patterns

variable {M K N : Nat}

/-- A linear layer as the reference writes it: the product with the transposed weight matrix, plus the bias made a
    one-row matrix and broadcast down the rows. Entry `(r, j)` is `(∑ₖ p[r,k] · W[j,k]) + b[j]`. -/
theorem linear_eq (p : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb : (⟨2, ![1, N]⟩ : Shape).BroadcastsInDim ⟨2, ![M, N]⟩ (![0, 1] : Fin 2 → Fin 2)) :
    addf (Host.dotGeneral (DotDims.plain M K N) none p (transpose ⟨2, ![K, N]⟩ [1, 0] W ht))
        (broadcastInDim ⟨2, ![M, N]⟩ ![0, 1] hb (broadcastInDim ⟨2, ![1, N]⟩ ![1] hb1 b))
      = affine p W b := by
  funext i
  obtain ⟨r, j, rfl⟩ : ∃ (r : Fin M) (j : Fin N), i = ix2 r j := ⟨i 0, i 1, eq_ix2 i⟩
  rw [addf_apply, StackMember.dotGeneral_plain_apply, broadcastInDim_oneRow_apply, affine_apply]
  congr 1
  · refine Finset.sum_congr rfl fun k _ => ?_
    rw [transpose_ix2_apply]
  · refine broadcastInDim_apply ![1] hb1 b (ix2 (0 : Fin 1) j) (ix1 j) fun a => ?_
    match a with
    | ⟨0, _⟩ =>
      show j.val = if N = 1 then 0 else j.val
      split
      · have := j.isLt; omega
      · rfl

/-- A maximum with a broadcast zero is the maximum with zero at every index. -/
theorem relu_eq {S : Shape} (X : FVec Ideal S .f32)
    (hb : (⟨0, ![]⟩ : Shape).BroadcastsInDim S (![] : Fin 0 → Fin S.rank)) :
    maximumf X (broadcastInDim S ![] hb (constant (F := Ideal) ⟨0, ![]⟩ .f32 0x00000000#32))
      = fun i => max (X i) 0 := by
  funext i
  rw [maximumf_apply, broadcastInDim_constant, broadcast_apply]
  exact congrArg (max _) Ideal.ofBits_zero_f32

/-- A product with a broadcast one is the other factor. -/
theorem one_mulf_eq {S : Shape} (X : FVec Ideal S .f32)
    (hb : (⟨0, ![]⟩ : Shape).BroadcastsInDim S (![] : Fin 0 → Fin S.rank)) :
    mulf (broadcastInDim S ![] hb (constant (F := Ideal) ⟨0, ![]⟩ .f32 0x3F800000#32)) X = X := by
  funext i
  rw [mulf_apply, broadcastInDim_constant, broadcast_apply]
  show Ideal.ofBits .f32 0x3F800000#32 * X i = X i
  rw [Ideal.ofBits_one_f32, one_mul]

end patterns

/-! ## The reference's matrix products have the plain dimension numbers -/

theorem dims_e1 : dot_S1600000x4_S4x7_S1600000x7_1_0_0_1_n_n = DotDims.plain 1600000 4 7 := rfl
theorem dims_n1a : dot_S100000x7_S7x64_S100000x64_1_0_0_1_n_n = DotDims.plain 100000 7 64 := rfl
theorem dims_n : dot_S100000x64_S64x64_S100000x64_1_0_0_1_n_n = DotDims.plain 100000 64 64 := rfl
theorem dims_e2 : dot_S1600000x4_S4x64_S1600000x64_1_0_0_1_n_n = DotDims.plain 1600000 4 64 := rfl
theorem dims_fc : dot_S1000x64_S64x12_S1000x12_1_0_0_1_n_n = DotDims.plain 1000 64 12 := rfl

/-! ## The result -/

set_option maxHeartbeats 8000000 in
/-- THE REFERENCE'S RESULT is the network of its arguments. -/
theorem result_eq (m : (ℓ : Loc nD τ sig) → Buf (Elt Ideal) ℓ) (c : Dev nD) :
    Cert.ReferenceIdeal.Value.res_main_v84 (F := Ideal) m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.Value.res_main_v84
  rw [dims_e1, dims_n1a, dims_n, dims_e2, dims_fc]
  repeat rw [linear_eq]
  repeat rw [relu_eq]
  repeat rw [one_mulf_eq]
  rfl

end Cert.ReferenceIdeal.RefLayers

end
-- ==== Proof.Boundaries.lean ====
/- What every boundary of the program leaves untouched.

  The program is thirteen segments: eight stretches of host operations and five pipelined calls. A stretch rewrites
  only the buffers its operations produce; a pipelined call rewrites only its one result array (its other arrays are
  inputs, read through their windows and left as they were). So a buffer that a segment does not produce holds after
  the segment what it held before it: one statement per boundary, for any buffer, with the produced buffers listed.
-/
import proofs.«400220_j12919261627156_1_alg».proof.Proof.Gen.KernelIdeal.Frame
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Boundaries

open Cert.KernelIdeal Cert.KernelIdeal.Gen

variable {F : FTy → Type} [FloatOps F]
variable (m : (ℓ : Loc nD τ sig) → Buf (Elt F) ℓ) (ρ : Dev nD → PrngReg)

/-- Each operation of a stretch writes one buffer, and that buffer is on the stretch's list. -/
macro "writes_listed" : tactic =>
  `(tactic| ((repeat' apply And.intro) <;>
      exact Finset.singleton_subset_iff.mpr (List.mem_toFinset.mpr (List.mem_map_of_mem (by decide)))))

theorem W1_keep (c : Dev nD) (b : Ref sig .tc) (hb : b ∉ ([main_v0, main_v1, main_v2, main_v3] : List (Ref sig .tc))) :
    W1 m ρ c (Proc.devRef .tc b) = W0 m ρ c (Proc.devRef .tc b) :=
  StableHlo.after_of_writes_sub (W := [main_v0, main_v1, main_v2, main_v3]) hostOps0 (W0 m ρ c) (by
    simp only [hostOps0, List.Forall, StableHlo.nullary_writes, StableHlo.unary_writes, StableHlo.binary_writes,
      StableHlo.ternary_writes, StableHlo.reshape_writes]
    writes_listed) hb

theorem W2_keep (c : Dev nD) (b : Ref sig .tc) (hb : b ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4] : List (Ref sig .tc))) :
    W2 m ρ c (Proc.devRef .tc b) = W1 m ρ c (Proc.devRef .tc b) :=
  StableHlo.after_of_writes_sub (W := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]) hostOps0_1 (W1 m ρ c) (by
    simp only [hostOps0_1, List.Forall, StableHlo.nullary_writes, StableHlo.unary_writes, StableHlo.binary_writes,
      StableHlo.ternary_writes, StableHlo.reshape_writes]
    writes_listed) hb

theorem W3_keep (c : Dev nD) (b : Ref sig .tc) (hb : b ∉ ([main_v5] : List (Ref sig .tc))) :
    W3 m ρ c (Proc.devRef .tc b) = W2 m ρ c (Proc.devRef .tc b) :=
  StableHlo.after_of_writes_sub (W := [main_v5]) hostOps0_2 (W2 m ρ c) (by
    simp only [hostOps0_2, List.Forall, StableHlo.nullary_writes, StableHlo.unary_writes, StableHlo.binary_writes,
      StableHlo.ternary_writes, StableHlo.reshape_writes]
    writes_listed) hb

theorem W4_keep (c : Dev nD) (b : Ref sig .tc) (hb : b ≠ main_v6) :
    W4 m ρ c (Proc.devRef .tc b) = W3 m ρ c (Proc.devRef .tc b) := by
  by_cases h : ∃ w, Pipeline.arrRef spec0 w = b
  · obtain ⟨w, rfl⟩ := h
    fin_cases w
    · exact (W4_arr m ρ c 0).trans (((dat0 (V3 m ρ) c).arrAt_in 0 rfl _).trans (A_eq0 (V3 m ρ) c 0))
    · exact (W4_arr m ρ c 1).trans (((dat0 (V3 m ρ) c).arrAt_in 1 rfl _).trans (A_eq0 (V3 m ρ) c 1))
    · exact (W4_arr m ρ c 2).trans (((dat0 (V3 m ρ) c).arrAt_in 2 rfl _).trans (A_eq0 (V3 m ρ) c 2))
    · exact (W4_arr m ρ c 3).trans (((dat0 (V3 m ρ) c).arrAt_in 3 rfl _).trans (A_eq0 (V3 m ρ) c 3))
    · exact absurd rfl hb
  · exact W4_of_ne m ρ c b fun w e => h ⟨w, e⟩

theorem W5_keep (c : Dev nD) (b : Ref sig .tc) (hb : b ∉ ([main_cst, main_v7, main_v8, main_v9, main_v10, main_v11] : List (Ref sig .tc))) :
    W5 m ρ c (Proc.devRef .tc b) = W4 m ρ c (Proc.devRef .tc b) :=
  StableHlo.after_of_writes_sub (W := [main_cst, main_v7, main_v8, main_v9, main_v10, main_v11]) hostOps1 (W4 m ρ c) (by
    simp only [hostOps1, List.Forall, StableHlo.nullary_writes, StableHlo.unary_writes, StableHlo.binary_writes,
      StableHlo.ternary_writes, StableHlo.reshape_writes]
    writes_listed) hb

theorem W6_keep (c : Dev nD) (b : Ref sig .tc) (hb : b ≠ main_v12) :
    W6 m ρ c (Proc.devRef .tc b) = W5 m ρ c (Proc.devRef .tc b) := by
  by_cases h : ∃ w, Pipeline.arrRef spec1 w = b
  · obtain ⟨w, rfl⟩ := h
    fin_cases w
    · exact (W6_arr m ρ c 0).trans (((dat1 (V5 m ρ) c).arrAt_in 0 rfl _).trans (A_eq1 (V5 m ρ) c 0))
    · exact (W6_arr m ρ c 1).trans (((dat1 (V5 m ρ) c).arrAt_in 1 rfl _).trans (A_eq1 (V5 m ρ) c 1))
    · exact (W6_arr m ρ c 2).trans (((dat1 (V5 m ρ) c).arrAt_in 2 rfl _).trans (A_eq1 (V5 m ρ) c 2))
    · exact (W6_arr m ρ c 3).trans (((dat1 (V5 m ρ) c).arrAt_in 3 rfl _).trans (A_eq1 (V5 m ρ) c 3))
    · exact (W6_arr m ρ c 4).trans (((dat1 (V5 m ρ) c).arrAt_in 4 rfl _).trans (A_eq1 (V5 m ρ) c 4))
    · exact (W6_arr m ρ c 5).trans (((dat1 (V5 m ρ) c).arrAt_in 5 rfl _).trans (A_eq1 (V5 m ρ) c 5))
    · exact absurd rfl hb
  · exact W6_of_ne m ρ c b fun w e => h ⟨w, e⟩

theorem W7_keep (c : Dev nD) (b : Ref sig .tc) (hb : b ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v13] : List (Ref sig .tc))) :
    W7 m ρ c (Proc.devRef .tc b) = W6 m ρ c (Proc.devRef .tc b) :=
  StableHlo.after_of_writes_sub (W := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v13]) hostOps2 (W6 m ρ c) (by
    simp only [hostOps2, List.Forall, StableHlo.nullary_writes, StableHlo.unary_writes, StableHlo.binary_writes,
      StableHlo.ternary_writes, StableHlo.reshape_writes]
    writes_listed) hb

theorem W8_keep (c : Dev nD) (b : Ref sig .tc) (hb : b ∉ ([main_v14] : List (Ref sig .tc))) :
    W8 m ρ c (Proc.devRef .tc b) = W7 m ρ c (Proc.devRef .tc b) :=
  StableHlo.after_of_writes_sub (W := [main_v14]) hostOps2_1 (W7 m ρ c) (by
    simp only [hostOps2_1, List.Forall, StableHlo.nullary_writes, StableHlo.unary_writes, StableHlo.binary_writes,
      StableHlo.ternary_writes, StableHlo.reshape_writes]
    writes_listed) hb

theorem W9_keep (c : Dev nD) (b : Ref sig .tc) (hb : b ≠ main_v15) :
    W9 m ρ c (Proc.devRef .tc b) = W8 m ρ c (Proc.devRef .tc b) := by
  by_cases h : ∃ w, Pipeline.arrRef spec2 w = b
  · obtain ⟨w, rfl⟩ := h
    fin_cases w
    · exact (W9_arr m ρ c 0).trans (((dat2 (V8 m ρ) c).arrAt_in 0 rfl _).trans (A_eq2 (V8 m ρ) c 0))
    · exact (W9_arr m ρ c 1).trans (((dat2 (V8 m ρ) c).arrAt_in 1 rfl _).trans (A_eq2 (V8 m ρ) c 1))
    · exact (W9_arr m ρ c 2).trans (((dat2 (V8 m ρ) c).arrAt_in 2 rfl _).trans (A_eq2 (V8 m ρ) c 2))
    · exact (W9_arr m ρ c 3).trans (((dat2 (V8 m ρ) c).arrAt_in 3 rfl _).trans (A_eq2 (V8 m ρ) c 3))
    · exact absurd rfl hb
  · exact W9_of_ne m ρ c b fun w e => h ⟨w, e⟩

theorem W10_keep (c : Dev nD) (b : Ref sig .tc) (hb : b ∉ ([main_cst_0, main_v16, main_v17, main_v18, main_v19, main_v20] : List (Ref sig .tc))) :
    W10 m ρ c (Proc.devRef .tc b) = W9 m ρ c (Proc.devRef .tc b) :=
  StableHlo.after_of_writes_sub (W := [main_cst_0, main_v16, main_v17, main_v18, main_v19, main_v20]) hostOps3 (W9 m ρ c) (by
    simp only [hostOps3, List.Forall, StableHlo.nullary_writes, StableHlo.unary_writes, StableHlo.binary_writes,
      StableHlo.ternary_writes, StableHlo.reshape_writes]
    writes_listed) hb

theorem W11_keep (c : Dev nD) (b : Ref sig .tc) (hb : b ≠ main_v21) :
    W11 m ρ c (Proc.devRef .tc b) = W10 m ρ c (Proc.devRef .tc b) := by
  by_cases h : ∃ w, Pipeline.arrRef spec3 w = b
  · obtain ⟨w, rfl⟩ := h
    fin_cases w
    · exact (W11_arr m ρ c 0).trans (((dat3 (V10 m ρ) c).arrAt_in 0 rfl _).trans (A_eq3 (V10 m ρ) c 0))
    · exact (W11_arr m ρ c 1).trans (((dat3 (V10 m ρ) c).arrAt_in 1 rfl _).trans (A_eq3 (V10 m ρ) c 1))
    · exact (W11_arr m ρ c 2).trans (((dat3 (V10 m ρ) c).arrAt_in 2 rfl _).trans (A_eq3 (V10 m ρ) c 2))
    · exact (W11_arr m ρ c 3).trans (((dat3 (V10 m ρ) c).arrAt_in 3 rfl _).trans (A_eq3 (V10 m ρ) c 3))
    · exact (W11_arr m ρ c 4).trans (((dat3 (V10 m ρ) c).arrAt_in 4 rfl _).trans (A_eq3 (V10 m ρ) c 4))
    · exact (W11_arr m ρ c 5).trans (((dat3 (V10 m ρ) c).arrAt_in 5 rfl _).trans (A_eq3 (V10 m ρ) c 5))
    · exact absurd rfl hb
  · exact W11_of_ne m ρ c b fun w e => h ⟨w, e⟩

theorem W12_keep (c : Dev nD) (b : Ref sig .tc) (hb : b ∉ ([main_cst_1, main_v22, main_v23, main_v24, main_cst_2, main_v25, main_cst_3, main_v26, main_v27, main_v28, main_cst_4, main_v29, main_v30, main_v31, main_v32, main_v33, main_v34] : List (Ref sig .tc))) :
    W12 m ρ c (Proc.devRef .tc b) = W11 m ρ c (Proc.devRef .tc b) :=
  StableHlo.after_of_writes_sub (W := [main_cst_1, main_v22, main_v23, main_v24, main_cst_2, main_v25, main_cst_3, main_v26, main_v27, main_v28, main_cst_4, main_v29, main_v30, main_v31, main_v32, main_v33, main_v34]) hostOps4 (W11 m ρ c) (by
    simp only [hostOps4, List.Forall, StableHlo.nullary_writes, StableHlo.unary_writes, StableHlo.binary_writes,
      StableHlo.ternary_writes, StableHlo.reshape_writes]
    writes_listed) hb

theorem W13_keep (c : Dev nD) (b : Ref sig .tc) (hb : b ≠ main_v35) :
    W13 m ρ c (Proc.devRef .tc b) = W12 m ρ c (Proc.devRef .tc b) := by
  by_cases h : ∃ w, Pipeline.arrRef spec4 w = b
  · obtain ⟨w, rfl⟩ := h
    fin_cases w
    · exact (W13_arr m ρ c 0).trans (((dat4 (V12 m ρ) c).arrAt_in 0 rfl _).trans (A_eq4 (V12 m ρ) c 0))
    · exact (W13_arr m ρ c 1).trans (((dat4 (V12 m ρ) c).arrAt_in 1 rfl _).trans (A_eq4 (V12 m ρ) c 1))
    · exact (W13_arr m ρ c 2).trans (((dat4 (V12 m ρ) c).arrAt_in 2 rfl _).trans (A_eq4 (V12 m ρ) c 2))
    · exact absurd rfl hb
  · exact W13_of_ne m ρ c b fun w e => h ⟨w, e⟩

end Cert.KernelIdeal.Boundaries

end
-- ==== Proof.Carried.lean ====
/-
  What the kernel program's result buffer holds after the last segment, as a function of the launch contents.

  The program's buffers are followed boundary by boundary. A host stretch leaves at each buffer it produces its
  operation's function of the buffers it reads; a pipelined call leaves at its result array the layer formula of the
  arrays it found (the region modules); every other buffer is carried over unchanged. Read in program order this is:
  the source and target rows of the edge list; the first layer's gathered rows, messages, sums and node update; the
  same for the second layer on the first layer's features; the mean pool; the head. With every source index in
  range the gather's fill value is never taken, and the result is `network` of the eighteen arguments.
-/
import proofs.«400220_j12919261627156_1_alg».proof.Proof.Gen.KernelIdeal.Frame
import proofs.«400220_j12919261627156_1_alg».proof.Proof.Boundaries
import proofs.«400220_j12919261627156_1_alg».proof.Proof.HostOps
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Carried

open Cert.KernelIdeal Cert.KernelIdeal.Gen Cert.KernelIdeal.Boundaries Cert.MessagePassing

variable (m : (ℓ : Loc nD τ sig) → Buf (Elt Ideal) ℓ) (ρ : Dev nD → PrngReg)

/-- Every buffer some segment of the program produces. -/
def made : List (Ref sig .tc) :=
  [main_v0, main_v1, main_v2, main_v3, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4, main_v5, main_v6, main_cst, main_v7, main_v8, main_v9, main_v10, main_v11, main_v12, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v13, main_v14, main_v15, main_cst_0, main_v16, main_v17, main_v18, main_v19, main_v20, main_v21, main_cst_1, main_v22, main_v23, main_v24, main_cst_2, main_v25, main_cst_3, main_v26, main_v27, main_v28, main_cst_4, main_v29, main_v30, main_v31, main_v32, main_v33, main_v34, main_v35]

/-- A buffer no segment produces (an argument) holds its launch contents at every boundary. -/
theorem launch (c : Dev nD) (b : Ref sig .tc) (hb : b ∉ made) :
    W1 m ρ c (Proc.devRef .tc b) = m ((c.tc : Thread nD τ).loc b)
    ∧ W2 m ρ c (Proc.devRef .tc b) = m ((c.tc : Thread nD τ).loc b)
    ∧ W3 m ρ c (Proc.devRef .tc b) = m ((c.tc : Thread nD τ).loc b)
    ∧ W4 m ρ c (Proc.devRef .tc b) = m ((c.tc : Thread nD τ).loc b)
    ∧ W5 m ρ c (Proc.devRef .tc b) = m ((c.tc : Thread nD τ).loc b)
    ∧ W6 m ρ c (Proc.devRef .tc b) = m ((c.tc : Thread nD τ).loc b)
    ∧ W7 m ρ c (Proc.devRef .tc b) = m ((c.tc : Thread nD τ).loc b)
    ∧ W8 m ρ c (Proc.devRef .tc b) = m ((c.tc : Thread nD τ).loc b)
    ∧ W9 m ρ c (Proc.devRef .tc b) = m ((c.tc : Thread nD τ).loc b)
    ∧ W10 m ρ c (Proc.devRef .tc b) = m ((c.tc : Thread nD τ).loc b)
    ∧ W11 m ρ c (Proc.devRef .tc b) = m ((c.tc : Thread nD τ).loc b)
    ∧ W12 m ρ c (Proc.devRef .tc b) = m ((c.tc : Thread nD τ).loc b) := by
  have hm : ∀ r, r ∈ made → b ≠ r := fun r hr e => hb (e ▸ hr)
  have n : ∀ l : List (Ref sig .tc), (∀ r ∈ l, r ∈ made) → b ∉ l := fun l hl h => hb (hl b h)
  have h1 : W1 m ρ c (Proc.devRef .tc b) = m ((c.tc : Thread nD τ).loc b) :=
    W1_keep m ρ c b (n _ (by decide))
  have h2 := (W2_keep m ρ c b (n _ (by decide))).trans h1
  have h3 := (W3_keep m ρ c b (n _ (by decide))).trans h2
  have h4 := (W4_keep m ρ c b (hm _ (by decide))).trans h3
  have h5 := (W5_keep m ρ c b (n _ (by decide))).trans h4
  have h6 := (W6_keep m ρ c b (hm _ (by decide))).trans h5
  have h7 := (W7_keep m ρ c b (n _ (by decide))).trans h6
  have h8 := (W8_keep m ρ c b (n _ (by decide))).trans h7
  have h9 := (W9_keep m ρ c b (hm _ (by decide))).trans h8
  have h10 := (W10_keep m ρ c b (n _ (by decide))).trans h9
  have h11 := (W11_keep m ρ c b (hm _ (by decide))).trans h10
  have h12 := (W12_keep m ρ c b (n _ (by decide))).trans h11
  exact ⟨h1, h2, h3, h4, h5, h6, h7, h8, h9, h10, h11, h12⟩

/-! ## What a host stretch leaves, from any contents it finds -/

/-- The first stretch leaves the source row of the edge list in its buffer … -/
theorem source_of (U : Valuation τ sig (Elt Ideal)) :
    StableHlo.after hostOps0 U (Proc.devRef .tc main_v1)
      = sourceRow (U (Proc.devRef .tc main_arg1)) := by
  dsimp only [hostOps0]
  after_results
  rfl

/-- … and the target row in its. -/
theorem target_of (U : Valuation τ sig (Elt Ideal)) :
    StableHlo.after hostOps0 U (Proc.devRef .tc main_v3)
      = targetRow (U (Proc.devRef .tc main_arg1)) := by
  dsimp only [hostOps0]
  after_results
  rfl

/-- A value carried into a buffer's type and back is the value. -/
theorem cast_back {α β : Type} (h : α = β) (h' : β = α) (a : α) : cast h' (cast h a) = a := by subst h; rfl

theorem typed_source (u : (⟨S1600000, .i32⟩ : BufTy).Contents (Elt Ideal)) :
    (StableHlo.TRef.of (sig := sig) (T := ⟨S1600000, .i32⟩) main_v1).ofBuf u = u := rfl

set_option maxRecDepth 1000000 in
/-- The first layer's gathered rows as the stretch states them: between its typed buffers. -/
theorem gathered1_typed (U : Valuation τ sig (Elt Ideal)) :
    StableHlo.after hostOps0_1 U (Proc.devRef .tc main_v4)
      = (StableHlo.TRef.of (sig := sig) (T := ⟨S1600000x7, .f32⟩) main_v4).toBuf
          (rowsOrFill rowGather7_wf mask7 fill7
            ((StableHlo.TRef.of (sig := sig) (T := ⟨S100000x7, .f32⟩) main_arg0).ofBuf (U (Proc.devRef .tc main_arg0)))
            ((StableHlo.TRef.of (sig := sig) (T := ⟨S1600000, .i32⟩) main_v1).ofBuf (U (Proc.devRef .tc main_v1)))) := by
  dsimp only [hostOps0_1]
  after_results_simp
  simp only [StableHlo.TRef.toBuf, StableHlo.TRef.ofBuf, cast_back]
  rfl

theorem typed_out7 (z : (⟨S1600000x7, .f32⟩ : BufTy).Contents (Elt Ideal)) :
    (StableHlo.TRef.of (sig := sig) (T := ⟨S1600000x7, .f32⟩) main_v4).toBuf z = z := rfl
theorem typed_in7 (u : (⟨S100000x7, .f32⟩ : BufTy).Contents (Elt Ideal)) :
    (StableHlo.TRef.of (sig := sig) (T := ⟨S100000x7, .f32⟩) main_arg0).ofBuf u = u := rfl

/-- The first layer's gathered rows, out-of-range rows at the fill value, of what the stretch found. -/
theorem gathered1_of (U : Valuation τ sig (Elt Ideal)) :
    StableHlo.after hostOps0_1 U (Proc.devRef .tc main_v4)
      = rowsOrFill rowGather7_wf mask7 fill7 (U (Proc.devRef .tc main_arg0)) (U (Proc.devRef .tc main_v1)) :=
  (gathered1_typed U).trans (by rw [typed_out7, typed_in7, typed_source])

/-- The first layer's message bias as a one-row matrix. -/
theorem bias_e1_of (U : Valuation τ sig (Elt Ideal)) :
    StableHlo.after hostOps0_2 U (Proc.devRef .tc main_v5)
      = shapeCast S1x7 (U (Proc.devRef .tc main_arg5)) shapeCasts_S7_S1x7 := by
  dsimp only [hostOps0_2]
  after_results
  rfl

/-- The first layer's messages added into their target nodes' rows. -/
theorem summed1_of (U : Valuation τ sig (Elt Ideal)) :
    StableHlo.after hostOps1 U (Proc.devRef .tc main_v9)
      = sumAtTargets nodeScatter7_wf zero7 (U (Proc.devRef .tc main_v3)) (U (Proc.devRef .tc main_v6)) := by
  dsimp only [hostOps1]
  after_results
  rfl

/-- The first layer's first perceptron bias as a one-row matrix. -/
theorem bias_n1a_of (U : Valuation τ sig (Elt Ideal)) :
    StableHlo.after hostOps1 U (Proc.devRef .tc main_v10)
      = shapeCast S1x64 (U (Proc.devRef .tc main_arg7)) shapeCasts_S64_S1x64 := by
  dsimp only [hostOps1]
  after_results
  rfl

/-- The first layer's second perceptron bias as a one-row matrix. -/
theorem bias_n1b_of (U : Valuation τ sig (Elt Ideal)) :
    StableHlo.after hostOps1 U (Proc.devRef .tc main_v11)
      = shapeCast S1x64 (U (Proc.devRef .tc main_arg9)) shapeCasts_S64_S1x64 := by
  dsimp only [hostOps1]
  after_results
  rfl

set_option maxRecDepth 1000000 in
/-- The second layer's gathered rows as the stretch states them: between its typed buffers. -/
theorem gathered2_typed (U : Valuation τ sig (Elt Ideal)) :
    StableHlo.after hostOps2 U (Proc.devRef .tc main_v13)
      = (StableHlo.TRef.of (sig := sig) (T := ⟨S1600000x64, .f32⟩) main_v13).toBuf
          (rowsOrFill rowGather64_wf mask64 fill64
            ((StableHlo.TRef.of (sig := sig) (T := ⟨S100000x64, .f32⟩) main_v12).ofBuf (U (Proc.devRef .tc main_v12)))
            ((StableHlo.TRef.of (sig := sig) (T := ⟨S1600000, .i32⟩) main_v1).ofBuf (U (Proc.devRef .tc main_v1)))) := by
  dsimp only [hostOps2]
  after_results_simp
  simp only [StableHlo.TRef.toBuf, StableHlo.TRef.ofBuf, cast_back]
  rfl

theorem typed_out64 (z : (⟨S1600000x64, .f32⟩ : BufTy).Contents (Elt Ideal)) :
    (StableHlo.TRef.of (sig := sig) (T := ⟨S1600000x64, .f32⟩) main_v13).toBuf z = z := rfl
theorem typed_in64 (u : (⟨S100000x64, .f32⟩ : BufTy).Contents (Elt Ideal)) :
    (StableHlo.TRef.of (sig := sig) (T := ⟨S100000x64, .f32⟩) main_v12).ofBuf u = u := rfl

/-- The second layer's gathered rows, out-of-range rows at the fill value, of what the stretch found. -/
theorem gathered2_of (U : Valuation τ sig (Elt Ideal)) :
    StableHlo.after hostOps2 U (Proc.devRef .tc main_v13)
      = rowsOrFill rowGather64_wf mask64 fill64 (U (Proc.devRef .tc main_v12)) (U (Proc.devRef .tc main_v1)) :=
  (gathered2_typed U).trans (by rw [typed_out64, typed_in64, typed_source])

/-- The second layer's message bias as a one-row matrix. -/
theorem bias_e2_of (U : Valuation τ sig (Elt Ideal)) :
    StableHlo.after hostOps2_1 U (Proc.devRef .tc main_v14)
      = shapeCast S1x64 (U (Proc.devRef .tc main_arg11)) shapeCasts_S64_S1x64 := by
  dsimp only [hostOps2_1]
  after_results
  rfl

/-- The second layer's messages added into their target nodes' rows. -/
theorem summed2_of (U : Valuation τ sig (Elt Ideal)) :
    StableHlo.after hostOps3 U (Proc.devRef .tc main_v18)
      = sumAtTargets nodeScatter64_wf zero64 (U (Proc.devRef .tc main_v3)) (U (Proc.devRef .tc main_v15)) := by
  dsimp only [hostOps3]
  after_results
  rfl

/-- The second layer's first perceptron bias as a one-row matrix. -/
theorem bias_n2a_of (U : Valuation τ sig (Elt Ideal)) :
    StableHlo.after hostOps3 U (Proc.devRef .tc main_v19)
      = shapeCast S1x64 (U (Proc.devRef .tc main_arg13)) shapeCasts_S64_S1x64 := by
  dsimp only [hostOps3]
  after_results
  rfl

/-- The second layer's second perceptron bias as a one-row matrix. -/
theorem bias_n2b_of (U : Valuation τ sig (Elt Ideal)) :
    StableHlo.after hostOps3 U (Proc.devRef .tc main_v20)
      = shapeCast S1x64 (U (Proc.devRef .tc main_arg15)) shapeCasts_S64_S1x64 := by
  dsimp only [hostOps3]
  after_results
  rfl

/-- Each graph's mean node feature, of what the stretch found. -/
theorem pooled_of (U : Valuation τ sig (Elt Ideal)) :
    StableHlo.after hostOps4 U (Proc.devRef .tc main_v33)
      = meanPool (U (Proc.devRef .tc main_arg3)) (U (Proc.devRef .tc main_v21)) := by
  dsimp only [hostOps4]
  after_results
  rfl

/-- The head's bias as a one-row matrix. -/
theorem bias_fc_of (U : Valuation τ sig (Elt Ideal)) :
    StableHlo.after hostOps4 U (Proc.devRef .tc main_v34)
      = shapeCast S1x12 (U (Proc.devRef .tc main_arg17)) shapeCasts_S12_S1x12 := by
  dsimp only [hostOps4]
  after_results
  rfl

/-! ## The same at the program's boundaries -/

theorem source_at1 (c : Dev nD) : W1 m ρ c (Proc.devRef .tc main_v1) = sourceRow (m ((c.tc : Thread nD τ).loc main_arg1)) := source_of (W0 m ρ c)
theorem target_at1 (c : Dev nD) : W1 m ρ c (Proc.devRef .tc main_v3) = targetRow (m ((c.tc : Thread nD τ).loc main_arg1)) := target_of (W0 m ρ c)
theorem gathered1 (c : Dev nD) : W2 m ρ c (Proc.devRef .tc main_v4) = rowsOrFill rowGather7_wf mask7 fill7 (W1 m ρ c (Proc.devRef .tc main_arg0)) (W1 m ρ c (Proc.devRef .tc main_v1)) := gathered1_of (W1 m ρ c)
theorem bias_e1 (c : Dev nD) : W3 m ρ c (Proc.devRef .tc main_v5) = shapeCast S1x7 (W2 m ρ c (Proc.devRef .tc main_arg5)) shapeCasts_S7_S1x7 := bias_e1_of (W2 m ρ c)
theorem summed1 (c : Dev nD) : W5 m ρ c (Proc.devRef .tc main_v9) = sumAtTargets nodeScatter7_wf zero7 (W4 m ρ c (Proc.devRef .tc main_v3)) (W4 m ρ c (Proc.devRef .tc main_v6)) := summed1_of (W4 m ρ c)
theorem bias_n1a (c : Dev nD) : W5 m ρ c (Proc.devRef .tc main_v10) = shapeCast S1x64 (W4 m ρ c (Proc.devRef .tc main_arg7)) shapeCasts_S64_S1x64 := bias_n1a_of (W4 m ρ c)
theorem bias_n1b (c : Dev nD) : W5 m ρ c (Proc.devRef .tc main_v11) = shapeCast S1x64 (W4 m ρ c (Proc.devRef .tc main_arg9)) shapeCasts_S64_S1x64 := bias_n1b_of (W4 m ρ c)
theorem gathered2 (c : Dev nD) : W7 m ρ c (Proc.devRef .tc main_v13) = rowsOrFill rowGather64_wf mask64 fill64 (W6 m ρ c (Proc.devRef .tc main_v12)) (W6 m ρ c (Proc.devRef .tc main_v1)) := gathered2_of (W6 m ρ c)
theorem bias_e2 (c : Dev nD) : W8 m ρ c (Proc.devRef .tc main_v14) = shapeCast S1x64 (W7 m ρ c (Proc.devRef .tc main_arg11)) shapeCasts_S64_S1x64 := bias_e2_of (W7 m ρ c)
theorem summed2 (c : Dev nD) : W10 m ρ c (Proc.devRef .tc main_v18) = sumAtTargets nodeScatter64_wf zero64 (W9 m ρ c (Proc.devRef .tc main_v3)) (W9 m ρ c (Proc.devRef .tc main_v15)) := summed2_of (W9 m ρ c)
theorem bias_n2a (c : Dev nD) : W10 m ρ c (Proc.devRef .tc main_v19) = shapeCast S1x64 (W9 m ρ c (Proc.devRef .tc main_arg13)) shapeCasts_S64_S1x64 := bias_n2a_of (W9 m ρ c)
theorem bias_n2b (c : Dev nD) : W10 m ρ c (Proc.devRef .tc main_v20) = shapeCast S1x64 (W9 m ρ c (Proc.devRef .tc main_arg15)) shapeCasts_S64_S1x64 := bias_n2b_of (W9 m ρ c)
theorem pooled (c : Dev nD) : W12 m ρ c (Proc.devRef .tc main_v33) = meanPool (W11 m ρ c (Proc.devRef .tc main_arg3)) (W11 m ρ c (Proc.devRef .tc main_v21)) := pooled_of (W11 m ρ c)
theorem bias_fc (c : Dev nD) : W12 m ρ c (Proc.devRef .tc main_v34) = shapeCast S1x12 (W11 m ρ c (Proc.devRef .tc main_arg17)) shapeCasts_S12_S1x12 := bias_fc_of (W11 m ρ c)

end Cert.KernelIdeal.Carried

end
-- ==== Proof.EdgeMessage1.lean ====
/-
  The first layer's edge messages, as the array the first pipelined call leaves behind it.

  The call walks the 1,600,000 edges in 200 blocks of 8,000 rows. At a block the body reads the block's rows of the edge
  attributes and of the gathered source features, the whole 7 × 4 projection matrix and the bias row, and stores
  relu (x_src + (edge_attr · Wᵀ + b)) for those rows. Row r of block t is row 8000·t + r of the arrays, so every block
  is the same function of the whole arrays read through the block's rows, and the 200 blocks tile the result: the
  array ends holding `edgeMessage` of the arrays as the call found them.
-/
import proofs.«400220_j12919261627156_1_alg».proof.Proof.Gen.KernelIdeal.Frame
import proofs.«400220_j12919261627156_1_alg».proof.Proof.Layers
import proofs.«400220_j12919261627156_1_alg».proof.Proof.PlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeMessage1

open Cert.KernelIdeal Cert.KernelIdeal.Gen Cert.MessagePassing

/-- The body's matrix product has the plain dimension numbers. -/
theorem dims : dot_S8000x4_S4x7_S8000x7_1_0_0_1_n_n = DotDims.plain 8000 4 7 := rfl

/-- What the body stores, at row `p` and column `q` of the block: relu of the source feature plus the projected edge
    attributes plus the bias. -/
theorem stored_apply (ea : Vec Ideal S8000x4 .f32) (W : Vec Ideal S7x4 .f32) (b : Vec Ideal S1x7 .f32)
    (xs : Vec Ideal S8000x7 .f32) (p : Fin 8000) (q : Fin 7) :
    k0_pay1 (F := Ideal) ea W b xs (ix2 p q)
      = max (xs (ix2 p q) + ((∑ k : Fin 4, ea (ix2 p k) * W (ix2 q k)) + b (ix2 (0 : Fin 1) q))) 0 := by
  unfold k0_pay1
  simp only [shapeCast_self, maximumf_apply, addf_apply, broadcast_apply, matmul, dims]
  rw [matmul_plain_apply, broadcastTo_1b_ab_apply]
  have hW : ∀ k : Fin 4, transpose S4x7 [1, 0] (truncf .bf16 W bitsLt_bf16_f32 : FVec Ideal S7x4 .bf16)
      transposes_S7x4_p1_0_S4x7 (ix2 k q) = W (ix2 q k) :=
    fun k => transpose_ix2_apply (truncf .bf16 W bitsLt_bf16_f32 : FVec Ideal S7x4 .bf16) transposes_S7x4_p1_0_S4x7 k q
  simp only [hW, truncf_apply]
  exact congrArg (max _) Ideal.ofBits_zero_f32

/-- The same at any index of the block. -/
theorem stored_at (ea : Vec Ideal S8000x4 .f32) (W : Vec Ideal S7x4 .f32) (b : Vec Ideal S1x7 .f32)
    (xs : Vec Ideal S8000x7 .f32) (j : S8000x7.Idx) :
    k0_pay1 (F := Ideal) ea W b xs j
      = max (xs j + ((∑ k : Fin 4, ea (ix2 (j 0) k) * W (ix2 (j 1) k)) + b (ix2 (0 : Fin 1) (j 1)))) 0 := by
  obtain ⟨p, q, rfl⟩ : ∃ (p : Fin 8000) (q : Fin 7), j = ix2 p q := ⟨j 0, j 1, eq_ix2 j⟩
  exact stored_apply ea W b xs p q

/-! ## The blocks -/

-- the contents of the buffers when the call is entered: any
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the edge attributes', the source features' and the result's at block
    row `t`, the projection matrix's and the bias row's at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the edge messages of the whole arrays. -/
theorem flushed_eq (c : Dev nD) (t : Fin cfg0.N) :
    (dat0 V c).flushed 4 t = ((cfg0.win 4).blk t).view.read (Elt Ideal)
      (edgeMessage (V c main_arg2) (V c main_v4) (V c main_arg4) (fun i => V c main_v5 (ix2 (0 : Fin 1) (i 0)))) := by
  show (cfg0.win 4).cut (grid0.coords t) ((dat0 V c).after 4 t) = _
  rw [after0_4]
  unfold out0_4
  rw [View.canon_unit_zero hz]
  simp only [View.ld_unit_zero (S := S8000x4) hz, View.ld_unit_zero (S := S7x4) hz, View.ld_unit_zero (S := S1x7) hz,
    View.ld_unit_zero (S := S8000x7) hz]
  obtain ⟨e00, e01, e10, e11, e20, e21, e30, e31, e40, e41⟩ := index_facts t
  funext j
  refine (stored_at (iblk0 V c 0 t) (iblk0 V c 2 t) (iblk0 V c 3 t) (iblk0 V c 1 t) j).trans ?_
  rw [View.read_apply]
  -- each input block, read at the block index, is its array at the embedded index
  have r1 : iblk0 V c 1 t j = V c main_v4 (((cfg0.win 4).blk t).view.emb j) := by
    unfold iblk0; rw [View.read_apply]
    show V c main_v4 (((cfg0.win 1).blk t).view.emb j) = _
    refine congrArg (V c main_v4) (funext fun a => Fin.ext ?_)
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 7 + 1 * (j 1).val = win0_4.index t (1 : Fin 2) * 7 + 1 * (j 1).val; omega
  have r0 : ∀ k : Fin 4, iblk0 V c 0 t (ix2 (j 0) k)
      = V c main_arg2 (ix2 ((((cfg0.win 4).blk t).view.emb j) 0) k) := by
    intro k; unfold iblk0; rw [View.read_apply]
    show V c main_arg2 (((cfg0.win 0).blk t).view.emb (ix2 (j 0) k)) = _
    refine congrArg (V c main_arg2) (funext fun a => Fin.ext ?_)
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 4 + 1 * k.val = k.val; omega
  have r2 : ∀ k : Fin 4, iblk0 V c 2 t (ix2 (j 1) k)
      = V c main_arg4 (ix2 ((((cfg0.win 4).blk t).view.emb j) 1) k) := by
    intro k; unfold iblk0; rw [View.read_apply]
    show V c main_arg4 (((cfg0.win 2).blk t).view.emb (ix2 (j 1) k)) = _
    refine congrArg (V c main_arg4) (funext fun a => Fin.ext ?_)
    match a with
    | ⟨0, _⟩ => show win0_2.index t (0 : Fin 2) * 7 + 1 * (j 1).val = win0_4.index t (1 : Fin 2) * 7 + 1 * (j 1).val; omega
    | ⟨1, _⟩ => show win0_2.index t (1 : Fin 2) * 4 + 1 * k.val = k.val; omega
  have r3 : iblk0 V c 3 t (ix2 (0 : Fin 1) (j 1))
      = V c main_v5 (ix2 (0 : Fin 1) ((((cfg0.win 4).blk t).view.emb j) 1)) := by
    unfold iblk0; rw [View.read_apply]
    show V c main_v5 (((cfg0.win 3).blk t).view.emb (ix2 (0 : Fin 1) (j 1))) = _
    refine congrArg (V c main_v5) (funext fun a => Fin.ext ?_)
    match a with
    | ⟨0, _⟩ => show win0_3.index t (0 : Fin 2) * 1 + 1 * 0 = 0; omega
    | ⟨1, _⟩ => show win0_3.index t (1 : Fin 2) * 7 + 1 * (j 1).val = win0_4.index t (1 : Fin 2) * 7 + 1 * (j 1).val; omega
  rw [r1, r3]
  simp only [r0, r2]
  rfl

/-- An index of the result array is in point `t`'s block iff each coordinate is in the block's range on its axis. -/
theorem mem_blk (t : Fin cfg0.N) (i : S1600000x7.Idx) :
    i ∈ ((cfg0.win 4).blk t).view.set ↔ ∀ a : Fin 2, win0_4.index t a * S8000x7.size a ≤ (i a).val
      ∧ (i a).val < win0_4.index t a * S8000x7.size a + S8000x7.size a := by
  show i ∈ ((View.whole main_v6).slice (win0_4.rect t)).set ↔ _
  rw [View.set_slice_whole, Rect.mem_set_unit]
  exact Iff.rfl

/-- Row `r` of the result lies in the block of point `r / 8000`: the blocks cover the array. -/
theorem covered (i : S1600000x7.Idx) :
    ∃ t : Fin cfg0.N, (cfg0.win 4).flush t = true ∧ i ∈ ((cfg0.win 4).blk t).view.set := by
  have hi0 : (i 0).val < 1600000 := (i 0).isLt
  have hi1 : (i 1).val < 7 := (i 1).isLt
  have hN : cfg0.N = 200 := N_0
  obtain ⟨t, ht⟩ : ∃ t : Fin cfg0.N, t.val = (i 0).val / 8000 := ⟨⟨(i 0).val / 8000, by rw [hN]; omega⟩, rfl⟩
  obtain ⟨-, -, -, -, -, -, -, -, e40, e41⟩ := index_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    rw [e40, ht]; omega
  | ⟨1, _⟩ =>
    show win0_4.index t (1 : Fin 2) * 7 ≤ (i 1).val ∧ (i 1).val < win0_4.index t (1 : Fin 2) * 7 + 7
    rw [e41]; omega

/-- THE ARRAY the call leaves: the edge messages of the arrays it found. -/
theorem array_eq (c : Dev nD) :
    (dat0 V c).arrAt 4 cfg0.N
      = edgeMessage (V c main_arg2) (V c main_v4) (V c main_arg4) (fun i => V c main_v5 (ix2 (0 : Fin 1) (i 0))) :=
  (dat0 V c).arrAt_eq_of_cover 4 _ (fun t _ => flushed_eq V c t) covered

end Cert.KernelIdeal.EdgeMessage1

end
-- ==== Proof.EdgeMessage2.lean ====
/- The second layer's edge messages, as the array the third pipelined call leaves behind it.

  The call walks the 1,600,000 edges in 200 blocks of 8,000 rows. At a block the body reads the block's rows of the edge
  attributes and of the gathered source features, the whole 64 × 4 projection matrix and the bias row, and stores
  relu (x_src + (edge_attr · Wᵀ + b)) for those rows. Row r of block t is row 8000·t + r of the arrays, so every block
  is the same function of the whole arrays read through the block's rows, and the 200 blocks tile the result: the
  array ends holding `edgeMessage` of the arrays as the call found them.
-/
import proofs.«400220_j12919261627156_1_alg».proof.Proof.Gen.KernelIdeal.Frame
import proofs.«400220_j12919261627156_1_alg».proof.Proof.Layers
import proofs.«400220_j12919261627156_1_alg».proof.Proof.PlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.EdgeMessage2

open Cert.KernelIdeal Cert.KernelIdeal.Gen Cert.MessagePassing

/-- The body's matrix product has the plain dimension numbers. -/
theorem dims : dot_S8000x4_S4x64_S8000x64_1_0_0_1_n_n = DotDims.plain 8000 4 64 := rfl

/-- What the body stores, at row `p` and column `q` of the block: relu of the source feature plus the projected edge
    attributes plus the bias. -/
theorem stored_apply (ea : Vec Ideal S8000x4 .f32) (W : Vec Ideal S64x4 .f32) (b : Vec Ideal S1x64 .f32)
    (xs : Vec Ideal S8000x64 .f32) (p : Fin 8000) (q : Fin 64) :
    k2_pay1 (F := Ideal) ea W b xs (ix2 p q)
      = max (xs (ix2 p q) + ((∑ k : Fin 4, ea (ix2 p k) * W (ix2 q k)) + b (ix2 (0 : Fin 1) q))) 0 := by
  unfold k2_pay1
  simp only [shapeCast_self, maximumf_apply, addf_apply, broadcast_apply, matmul, dims]
  rw [matmul_plain_apply, broadcastTo_1b_ab_apply]
  have hW : ∀ k : Fin 4, transpose S4x64 [1, 0] (truncf .bf16 W bitsLt_bf16_f32 : FVec Ideal S64x4 .bf16)
      transposes_S64x4_p1_0_S4x64 (ix2 k q) = W (ix2 q k) :=
    fun k => transpose_ix2_apply (truncf .bf16 W bitsLt_bf16_f32 : FVec Ideal S64x4 .bf16) transposes_S64x4_p1_0_S4x64 k q
  simp only [hW, truncf_apply]
  exact congrArg (max _) Ideal.ofBits_zero_f32

/-- The same at any index of the block. -/
theorem stored_at (ea : Vec Ideal S8000x4 .f32) (W : Vec Ideal S64x4 .f32) (b : Vec Ideal S1x64 .f32)
    (xs : Vec Ideal S8000x64 .f32) (j : S8000x64.Idx) :
    k2_pay1 (F := Ideal) ea W b xs j
      = max (xs j + ((∑ k : Fin 4, ea (ix2 (j 0) k) * W (ix2 (j 1) k)) + b (ix2 (0 : Fin 1) (j 1)))) 0 := by
  obtain ⟨p, q, rfl⟩ : ∃ (p : Fin 8000) (q : Fin 64), j = ix2 p q := ⟨j 0, j 1, eq_ix2 j⟩
  exact stored_apply ea W b xs p q

/-! ## The blocks -/

-- the contents of the buffers when the call is entered: any
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the edge attributes', the source features' and the result's at block
    row `t`, the projection matrix's and the bias row's at the origin. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of the edge messages of the whole arrays. -/
theorem flushed_eq (c : Dev nD) (t : Fin cfg2.N) :
    (dat2 V c).flushed 4 t = ((cfg2.win 4).blk t).view.read (Elt Ideal)
      (edgeMessage (V c main_arg2) (V c main_v13) (V c main_arg10) (fun i => V c main_v14 (ix2 (0 : Fin 1) (i 0)))) := by
  show (cfg2.win 4).cut (grid2.coords t) ((dat2 V c).after 4 t) = _
  rw [after2_4]
  unfold out2_4
  rw [View.canon_unit_zero hz]
  simp only [View.ld_unit_zero (S := S8000x4) hz, View.ld_unit_zero (S := S64x4) hz, View.ld_unit_zero (S := S1x64) hz,
    View.ld_unit_zero (S := S8000x64) hz]
  obtain ⟨e00, e01, e10, e11, e20, e21, e30, e31, e40, e41⟩ := index_facts t
  funext j
  refine (stored_at (iblk2 V c 0 t) (iblk2 V c 2 t) (iblk2 V c 3 t) (iblk2 V c 1 t) j).trans ?_
  rw [View.read_apply]
  -- each input block, read at the block index, is its array at the embedded index
  have r1 : iblk2 V c 1 t j = V c main_v13 (((cfg2.win 4).blk t).view.emb j) := by
    unfold iblk2; rw [View.read_apply]
    show V c main_v13 (((cfg2.win 1).blk t).view.emb j) = _
    refine congrArg (V c main_v13) (funext fun a => Fin.ext ?_)
    match a with
    | ⟨0, _⟩ => show win2_1.index t (0 : Fin 2) * 8000 + 1 * (j 0).val = win2_4.index t (0 : Fin 2) * 8000 + 1 * (j 0).val; omega
    | ⟨1, _⟩ => show win2_1.index t (1 : Fin 2) * 64 + 1 * (j 1).val = win2_4.index t (1 : Fin 2) * 64 + 1 * (j 1).val; omega
  have r0 : ∀ k : Fin 4, iblk2 V c 0 t (ix2 (j 0) k)
      = V c main_arg2 (ix2 ((((cfg2.win 4).blk t).view.emb j) 0) k) := by
    intro k; unfold iblk2; rw [View.read_apply]
    show V c main_arg2 (((cfg2.win 0).blk t).view.emb (ix2 (j 0) k)) = _
    refine congrArg (V c main_arg2) (funext fun a => Fin.ext ?_)
    match a with
    | ⟨0, _⟩ => show win2_0.index t (0 : Fin 2) * 8000 + 1 * (j 0).val = win2_4.index t (0 : Fin 2) * 8000 + 1 * (j 0).val; omega
    | ⟨1, _⟩ => show win2_0.index t (1 : Fin 2) * 4 + 1 * k.val = k.val; omega
  have r2 : ∀ k : Fin 4, iblk2 V c 2 t (ix2 (j 1) k)
      = V c main_arg10 (ix2 ((((cfg2.win 4).blk t).view.emb j) 1) k) := by
    intro k; unfold iblk2; rw [View.read_apply]
    show V c main_arg10 (((cfg2.win 2).blk t).view.emb (ix2 (j 1) k)) = _
    refine congrArg (V c main_arg10) (funext fun a => Fin.ext ?_)
    match a with
    | ⟨0, _⟩ => show win2_2.index t (0 : Fin 2) * 64 + 1 * (j 1).val = win2_4.index t (1 : Fin 2) * 64 + 1 * (j 1).val; omega
    | ⟨1, _⟩ => show win2_2.index t (1 : Fin 2) * 4 + 1 * k.val = k.val; omega
  have r3 : iblk2 V c 3 t (ix2 (0 : Fin 1) (j 1))
      = V c main_v14 (ix2 (0 : Fin 1) ((((cfg2.win 4).blk t).view.emb j) 1)) := by
    unfold iblk2; rw [View.read_apply]
    show V c main_v14 (((cfg2.win 3).blk t).view.emb (ix2 (0 : Fin 1) (j 1))) = _
    refine congrArg (V c main_v14) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  rw [r1, r3]
  simp only [r0, r2]
  rfl

/-- An index of the result array is in point `t`'s block iff each coordinate is in the block's range on its axis. -/
theorem mem_blk (t : Fin cfg2.N) (i : S1600000x64.Idx) :
    i ∈ ((cfg2.win 4).blk t).view.set ↔ ∀ a : Fin 2, win2_4.index t a * S8000x64.size a ≤ (i a).val
      ∧ (i a).val < win2_4.index t a * S8000x64.size a + S8000x64.size a := by
  show i ∈ ((View.whole main_v15).slice (win2_4.rect t)).set ↔ _
  rw [View.set_slice_whole, Rect.mem_set_unit]
  exact Iff.rfl

/-- Row `r` of the result lies in the block of point `r / 8000`: the blocks cover the array. -/
theorem covered (i : S1600000x64.Idx) :
    ∃ t : Fin cfg2.N, (cfg2.win 4).flush t = true ∧ i ∈ ((cfg2.win 4).blk t).view.set := by
  have hi0 : (i 0).val < 1600000 := (i 0).isLt
  have hi1 : (i 1).val < 64 := (i 1).isLt
  have hN : cfg2.N = 200 := N_2
  obtain ⟨t, ht⟩ : ∃ t : Fin cfg2.N, t.val = (i 0).val / 8000 := ⟨⟨(i 0).val / 8000, by rw [hN]; omega⟩, rfl⟩
  obtain ⟨-, -, -, -, -, -, -, -, e40, e41⟩ := index_facts t
  refine ⟨t, flush2_4 t, ?_⟩
  rw [mem_blk]
  intro a
  match a with
  | ⟨0, _⟩ =>
    show win2_4.index t (0 : Fin 2) * 8000 ≤ (i 0).val ∧ (i 0).val < win2_4.index t (0 : Fin 2) * 8000 + 8000
    rw [e40, ht]; omega
  | ⟨1, _⟩ =>
    show win2_4.index t (1 : Fin 2) * 64 ≤ (i 1).val ∧ (i 1).val < win2_4.index t (1 : Fin 2) * 64 + 64
    rw [e41]; omega

/-- THE ARRAY the call leaves: the edge messages of the arrays it found. -/
theorem array_eq (c : Dev nD) :
    (dat2 V c).arrAt 4 cfg2.N
      = edgeMessage (V c main_arg2) (V c main_v13) (V c main_arg10) (fun i => V c main_v14 (ix2 (0 : Fin 1) (i 0))) :=
  (dat2 V c).arrAt_eq_of_cover 4 _ (fun t _ => flushed_eq V c t) covered

end Cert.KernelIdeal.EdgeMessage2

end
-- ==== Proof.NodeUpdate1.lean ====
/-
  The first layer's node update, as the array the second pipelined call leaves behind it.

  The call walks the 100,000 nodes in 20 blocks of 5,000 rows. At a block the body reads the block's rows of the node
  features and of the aggregated messages, the whole 64 × 7 and 64 × 64 weight matrices and the two bias rows, and
  stores relu (relu ((x + aggr) · W₁ᵀ + b₁) · W₂ᵀ + b₂) for those rows. Row r of block t is row 5000·t + r of the
  arrays, so every block is the same function of the whole arrays read through the block's rows, and the 20 blocks
  tile the result: the array ends holding `nodeUpdate` of the arrays as the call found them.
-/
import proofs.«400220_j12919261627156_1_alg».proof.Proof.Gen.KernelIdeal.Frame
import proofs.«400220_j12919261627156_1_alg».proof.Proof.Layers
import proofs.«400220_j12919261627156_1_alg».proof.Proof.PlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.NodeUpdate1

open Cert.KernelIdeal Cert.KernelIdeal.Gen Cert.MessagePassing

/-- The body's two matrix products have the plain dimension numbers. -/
theorem dims1 : dot_S5000x7_S7x64_S5000x64_1_0_0_1_n_n = DotDims.plain 5000 7 64 := rfl
theorem dims2 : dot_S5000x64_S64x64_S5000x64_1_0_0_1_n_n = DotDims.plain 5000 64 64 := rfl

/-- What the body stores, at row `p` and column `q` of the block: relu of the second linear layer at the hidden
    activations, themselves relu of the first linear layer at the features plus the aggregated messages. -/
theorem stored_apply (x aggr : Vec Ideal S5000x7 .f32) (W1 : Vec Ideal S64x7 .f32) (b1 : Vec Ideal S1x64 .f32)
    (W2 : Vec Ideal S64x64 .f32) (b2 : Vec Ideal S1x64 .f32) (p : Fin 5000) (q : Fin 64) :
    k1_pay1 (F := Ideal) x aggr W1 b1 W2 b2 (ix2 p q)
      = max ((∑ k : Fin 64,
                max ((∑ i : Fin 7, (x (ix2 p i) + aggr (ix2 p i)) * W1 (ix2 k i)) + b1 (ix2 (0 : Fin 1) k)) 0
                  * W2 (ix2 q k)) + b2 (ix2 (0 : Fin 1) q)) 0 := by
  unfold k1_pay1
  simp only [shapeCast_self, maximumf_apply, addf_apply, broadcast_apply, matmul, dims1, dims2]
  rw [matmul_plain_apply, broadcastTo_1b_ab_apply]
  have hW2 : ∀ k : Fin 64, transpose S64x64 [1, 0] (truncf .bf16 W2 bitsLt_bf16_f32 : FVec Ideal S64x64 .bf16)
      transposes_S64x64_p1_0_S64x64 (ix2 k q) = W2 (ix2 q k) :=
    fun k => transpose_ix2_apply (truncf .bf16 W2 bitsLt_bf16_f32 : FVec Ideal S64x64 .bf16) transposes_S64x64_p1_0_S64x64 k q
  have hW1 : ∀ (k : Fin 64) (i : Fin 7), transpose S7x64 [1, 0] (truncf .bf16 W1 bitsLt_bf16_f32 : FVec Ideal S64x7 .bf16)
      transposes_S64x7_p1_0_S7x64 (ix2 i k) = W1 (ix2 k i) :=
    fun k i => transpose_ix2_apply (truncf .bf16 W1 bitsLt_bf16_f32 : FVec Ideal S64x7 .bf16) transposes_S64x7_p1_0_S7x64 i k
  simp only [hW2, truncf_apply, maximumf_apply, addf_apply, broadcast_apply, matmul_plain_apply, broadcastTo_1b_ab_apply, hW1]
  rw [show (Scalar.ofBits .f32 0x00000000#32 : Ideal .f32) = 0 from Ideal.ofBits_zero_f32]

/-- The same at any index of the block. -/
theorem stored_at (x aggr : Vec Ideal S5000x7 .f32) (W1 : Vec Ideal S64x7 .f32) (b1 : Vec Ideal S1x64 .f32)
    (W2 : Vec Ideal S64x64 .f32) (b2 : Vec Ideal S1x64 .f32) (j : S5000x64.Idx) :
    k1_pay1 (F := Ideal) x aggr W1 b1 W2 b2 j
      = max ((∑ k : Fin 64,
                max ((∑ i : Fin 7, (x (ix2 (j 0) i) + aggr (ix2 (j 0) i)) * W1 (ix2 k i)) + b1 (ix2 (0 : Fin 1) k)) 0
                  * W2 (ix2 (j 1) k)) + b2 (ix2 (0 : Fin 1) (j 1))) 0 := by
  obtain ⟨p, q, rfl⟩ : ∃ (p : Fin 5000) (q : Fin 64), j = ix2 p q := ⟨j 0, j 1, eq_ix2 j⟩
  exact stored_apply x aggr W1 b1 W2 b2 p q

/-! ## The blocks -/

-- the contents of the buffers when the call is entered: any
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the features', the aggregated messages' and the result's at block
    row `t`, the two weight matrices' and the two bias rows' at the origin. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 800000 in
/-- WHAT POINT `t` WRITES BACK is block `t` of the node update of the whole arrays. -/
theorem flushed_eq (c : Dev nD) (t : Fin cfg1.N) :
    (dat1 V c).flushed 6 t = ((cfg1.win 6).blk t).view.read (Elt Ideal)
      (nodeUpdate (V c main_arg0) (V c main_v9) (V c main_arg6) (fun i => V c main_v10 (ix2 (0 : Fin 1) (i 0)))
        (V c main_arg8) (fun i => V c main_v11 (ix2 (0 : Fin 1) (i 0)))) := by
  show (cfg1.win 6).cut (grid1.coords t) ((dat1 V c).after 6 t) = _
  rw [after1_6]
  unfold out1_6
  rw [View.canon_unit_zero hz]
  simp only [View.ld_unit_zero (S := S5000x7) hz, View.ld_unit_zero (S := S64x7) hz, View.ld_unit_zero (S := S1x64) hz,
    View.ld_unit_zero (S := S64x64) hz]
  obtain ⟨e00, e01, e10, e11, e20, e21, e30, e31, e40, e41, e50, e51, e60, e61⟩ := index_facts t
  funext j
  refine (stored_at (iblk1 V c 0 t) (iblk1 V c 1 t) (iblk1 V c 2 t) (iblk1 V c 3 t) (iblk1 V c 4 t) (iblk1 V c 5 t) j).trans ?_
  rw [View.read_apply]
  -- each input block, read at the block index, is its array at the embedded index
  have r0 : ∀ i : Fin 7, iblk1 V c 0 t (ix2 (j 0) i)
      = V c main_arg0 (ix2 ((((cfg1.win 6).blk t).view.emb j) 0) i) := by
    intro i; unfold iblk1; rw [View.read_apply]
    show V c main_arg0 (((cfg1.win 0).blk t).view.emb (ix2 (j 0) i)) = _
    refine congrArg (V c main_arg0) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 7 + 1 * i.val = i.val; omega
  have r1 : ∀ i : Fin 7, iblk1 V c 1 t (ix2 (j 0) i)
      = V c main_v9 (ix2 ((((cfg1.win 6).blk t).view.emb j) 0) i) := by
    intro i; unfold iblk1; rw [View.read_apply]
    show V c main_v9 (((cfg1.win 1).blk t).view.emb (ix2 (j 0) i)) = _
    refine congrArg (V c main_v9) (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 7 + 1 * i.val = i.val; omega
  have r2 : ∀ (k : Fin 64) (i : Fin 7), iblk1 V c 2 t (ix2 k i) = V c main_arg6 (ix2 k i) := by
    intro k i; unfold iblk1; rw [View.read_apply]
    show V c main_arg6 (((cfg1.win 2).blk t).view.emb (ix2 k i)) = _
    refine congrArg (V c main_arg6) (funext fun a => Fin.ext ?_)
    match a with
    | ⟨0, _⟩ => show win1_2.index t (0 : Fin 2) * 64 + 1 * k.val = k.val; omega
    | ⟨1, _⟩ => show win1_2.index t (1 : Fin 2) * 7 + 1 * i.val = i.val; omega
  have r3 : ∀ k : Fin 64, iblk1 V c 3 t (ix2 (0 : Fin 1) k) = V c main_v10 (ix2 (0 : Fin 1) k) := by
    intro k; unfold iblk1; rw [View.read_apply]
    show V c main_v10 (((cfg1.win 3).blk t).view.emb (ix2 (0 : Fin 1) k)) = _
    refine congrArg (V c main_v10) (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  have r4 : ∀ k : Fin 64, iblk1 V c 4 t (ix2 (j 1) k)
      = V c main_arg8 (ix2 ((((cfg1.win 6).blk t).view.emb j) 1) k) := by
    intro k; unfold iblk1; rw [View.read_apply]
    show V c main_arg8 (((cfg1.win 4).blk t).view.emb (ix2 (j 1) k)) = _
    refine congrArg (V c main_arg8) (funext fun a => Fin.ext ?_)
    match a with
    | ⟨0, _⟩ => show win1_4.index t (0 : Fin 2) * 64 + 1 * (j 1).val = win1_6.index t (1 : Fin 2) * 64 + 1 * (j 1).val; omega
    | ⟨1, _⟩ => show win1_4.index t (1 : Fin 2) * 64 + 1 * k.val = k.val; omega
  have r5 : iblk1 V c 5 t (ix2 (0 : Fin 1) (j 1))
      = V c main_v11 (ix2 (0 : Fin 1) ((((cfg1.win 6).blk t).view.emb j) 1)) := by
    unfold iblk1; rw [View.read_apply]
    show V c main_v11 (((cfg1.win 5).blk t).view.emb (ix2 (0 : Fin 1) (j 1))) = _
    refine congrArg (V c main_v11) (funext fun a => Fin.ext ?_)
    match a with
    | ⟨0, _⟩ => show win1_5.index t (0 : Fin 2) * 1 + 1 * 0 = 0; omega
    | ⟨1, _⟩ => show win1_5.index t (1 : Fin 2) * 64 + 1 * (j 1).val = win1_6.index t (1 : Fin 2) * 64 + 1 * (j 1).val; omega
  rw [r5]
  simp only [r0, r1, r2, r3, r4]
  rfl

/-- An index of the result array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v12).slice (win1_6.rect t)).set ↔ _
  rw [View.set_slice_whole, Rect.mem_set_unit]
  exact Iff.rfl

/-- Row `r` of the result lies in the block of point `r / 5000`: the blocks cover the array. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e60, e61⟩ := index_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e60, ht]; omega
  | ⟨1, _⟩ =>
    show win1_6.index t (1 : Fin 2) * 64 ≤ (i 1).val ∧ (i 1).val < win1_6.index t (1 : Fin 2) * 64 + 64
    rw [e61]; omega

/-- THE ARRAY the call leaves: the node update of the arrays it found. -/
theorem array_eq (c : Dev nD) :
    (dat1 V c).arrAt 6 cfg1.N
      = nodeUpdate (V c main_arg0) (V c main_v9) (V c main_arg6) (fun i => V c main_v10 (ix2 (0 : Fin 1) (i 0)))
          (V c main_arg8) (fun i => V c main_v11 (ix2 (0 : Fin 1) (i 0))) :=
  (dat1 V c).arrAt_eq_of_cover 6 _ (fun t _ => flushed_eq V c t) covered

end Cert.KernelIdeal.NodeUpdate1

end
-- ==== Proof.NodeUpdate2.lean ====
/-
  The second layer's node update, as the array the fourth pipelined call leaves behind it.

  The call walks the 100,000 nodes in 20 blocks of 5,000 rows. At a block the body reads the block's rows of the first
  layer's node features and of the second layer's aggregated messages, the two whole 64 × 64 weight matrices and the
  two bias rows, and stores relu (relu ((x + aggr) · W₁ᵀ + b₁) · W₂ᵀ + b₂) for those rows. Row r of block t is row
  5000·t + r of the arrays, so every block is the same function of the whole arrays read through the block's rows, and
  the 20 blocks tile the result: the array ends holding `nodeUpdate` of the arrays as the call found them.
-/
import proofs.«400220_j12919261627156_1_alg».proof.Proof.Gen.KernelIdeal.Frame
import proofs.«400220_j12919261627156_1_alg».proof.Proof.Layers
import proofs.«400220_j12919261627156_1_alg».proof.Proof.PlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.NodeUpdate2

open Cert.KernelIdeal Cert.KernelIdeal.Gen Cert.MessagePassing

/-- The body's two matrix products, of the same sizes, have the plain dimension numbers. -/
theorem dims : dot_S5000x64_S64x64_S5000x64_1_0_0_1_n_n = DotDims.plain 5000 64 64 := rfl

/-- What the body stores, at row `p` and column `q` of the block: relu of the second linear layer at the hidden
    activations, themselves relu of the first linear layer at the features plus the aggregated messages. -/
theorem stored_apply (x aggr : Vec Ideal S5000x64 .f32) (W1 : Vec Ideal S64x64 .f32) (b1 : Vec Ideal S1x64 .f32)
    (W2 : Vec Ideal S64x64 .f32) (b2 : Vec Ideal S1x64 .f32) (p : Fin 5000) (q : Fin 64) :
    k3_pay1 (F := Ideal) x aggr W1 b1 W2 b2 (ix2 p q)
      = max ((∑ k : Fin 64,
                max ((∑ i : Fin 64, (x (ix2 p i) + aggr (ix2 p i)) * W1 (ix2 k i)) + b1 (ix2 (0 : Fin 1) k)) 0
                  * W2 (ix2 q k)) + b2 (ix2 (0 : Fin 1) q)) 0 := by
  unfold k3_pay1
  simp only [shapeCast_self, maximumf_apply, addf_apply, broadcast_apply, matmul, dims]
  rw [matmul_plain_apply, broadcastTo_1b_ab_apply]
  have hW2 : ∀ k : Fin 64, transpose S64x64 [1, 0] (truncf .bf16 W2 bitsLt_bf16_f32 : FVec Ideal S64x64 .bf16)
      transposes_S64x64_p1_0_S64x64 (ix2 k q) = W2 (ix2 q k) :=
    fun k => transpose_ix2_apply (truncf .bf16 W2 bitsLt_bf16_f32 : FVec Ideal S64x64 .bf16) transposes_S64x64_p1_0_S64x64 k q
  have hW1 : ∀ (k : Fin 64) (i : Fin 64), transpose S64x64 [1, 0] (truncf .bf16 W1 bitsLt_bf16_f32 : FVec Ideal S64x64 .bf16)
      transposes_S64x64_p1_0_S64x64 (ix2 i k) = W1 (ix2 k i) :=
    fun k i => transpose_ix2_apply (truncf .bf16 W1 bitsLt_bf16_f32 : FVec Ideal S64x64 .bf16) transposes_S64x64_p1_0_S64x64 i k
  simp only [hW2, truncf_apply, maximumf_apply, addf_apply, broadcast_apply, matmul_plain_apply, broadcastTo_1b_ab_apply, hW1]
  rw [show (Scalar.ofBits .f32 0x00000000#32 : Ideal .f32) = 0 from Ideal.ofBits_zero_f32]

/-- The same at any index of the block. -/
theorem stored_at (x aggr : Vec Ideal S5000x64 .f32) (W1 : Vec Ideal S64x64 .f32) (b1 : Vec Ideal S1x64 .f32)
    (W2 : Vec Ideal S64x64 .f32) (b2 : Vec Ideal S1x64 .f32) (j : S5000x64.Idx) :
    k3_pay1 (F := Ideal) x aggr W1 b1 W2 b2 j
      = max ((∑ k : Fin 64,
                max ((∑ i : Fin 64, (x (ix2 (j 0) i) + aggr (ix2 (j 0) i)) * W1 (ix2 k i)) + b1 (ix2 (0 : Fin 1) k)) 0
                  * W2 (ix2 (j 1) k)) + b2 (ix2 (0 : Fin 1) (j 1))) 0 := by
  obtain ⟨p, q, rfl⟩ : ∃ (p : Fin 5000) (q : Fin 64), j = ix2 p q := ⟨j 0, j 1, eq_ix2 j⟩
  exact stored_apply x aggr W1 b1 W2 b2 p q

/-! ## The blocks -/

-- the contents of the buffers when the call is entered: any
variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the features', the aggregated messages' and the result's at block
    row `t`, the two weight matrices' and the two bias rows' at the origin. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 800000 in
/-- WHAT POINT `t` WRITES BACK is block `t` of the node update of the whole arrays. -/
theorem flushed_eq (c : Dev nD) (t : Fin cfg3.N) :
    (dat3 V c).flushed 6 t = ((cfg3.win 6).blk t).view.read (Elt Ideal)
      (nodeUpdate (V c main_v12) (V c main_v18) (V c main_arg12) (fun i => V c main_v19 (ix2 (0 : Fin 1) (i 0)))
        (V c main_arg14) (fun i => V c main_v20 (ix2 (0 : Fin 1) (i 0)))) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := index_facts t
  funext j
  refine (stored_at (iblk3 V c 0 t) (iblk3 V c 1 t) (iblk3 V c 2 t) (iblk3 V c 3 t) (iblk3 V c 4 t) (iblk3 V c 5 t) j).trans ?_
  rw [View.read_apply]
  -- each input block, read at the block index, is its array at the embedded index
  have r0 : ∀ i : Fin 64, iblk3 V c 0 t (ix2 (j 0) i)
      = V c main_v12 (ix2 ((((cfg3.win 6).blk t).view.emb j) 0) i) := by
    intro i; unfold iblk3; rw [View.read_apply]
    show V c main_v12 (((cfg3.win 0).blk t).view.emb (ix2 (j 0) i)) = _
    refine congrArg (V c main_v12) (funext fun a => Fin.ext ?_)
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 64 + 1 * i.val = i.val; omega
  have r1 : ∀ i : Fin 64, iblk3 V c 1 t (ix2 (j 0) i)
      = V c main_v18 (ix2 ((((cfg3.win 6).blk t).view.emb j) 0) i) := by
    intro i; unfold iblk3; rw [View.read_apply]
    show V c main_v18 (((cfg3.win 1).blk t).view.emb (ix2 (j 0) i)) = _
    refine congrArg (V c main_v18) (funext fun a => Fin.ext ?_)
    match a with
    | ⟨0, _⟩ => show win3_1.index t (0 : Fin 2) * 5000 + 1 * (j 0).val = win3_6.index t (0 : Fin 2) * 5000 + 1 * (j 0).val; omega
    | ⟨1, _⟩ => show win3_1.index t (1 : Fin 2) * 64 + 1 * i.val = i.val; omega
  have r2 : ∀ (k : Fin 64) (i : Fin 64), iblk3 V c 2 t (ix2 k i) = V c main_arg12 (ix2 k i) := by
    intro k i; unfold iblk3; rw [View.read_apply]
    show V c main_arg12 (((cfg3.win 2).blk t).view.emb (ix2 k i)) = _
    refine congrArg (V c main_arg12) (funext fun a => Fin.ext ?_)
    match a with
    | ⟨0, _⟩ => show win3_2.index t (0 : Fin 2) * 64 + 1 * k.val = k.val; omega
    | ⟨1, _⟩ => show win3_2.index t (1 : Fin 2) * 64 + 1 * i.val = i.val; omega
  have r3 : ∀ k : Fin 64, iblk3 V c 3 t (ix2 (0 : Fin 1) k) = V c main_v19 (ix2 (0 : Fin 1) k) := by
    intro k; unfold iblk3; rw [View.read_apply]
    show V c main_v19 (((cfg3.win 3).blk t).view.emb (ix2 (0 : Fin 1) k)) = _
    refine congrArg (V c main_v19) (funext fun a => Fin.ext ?_)
    match a with
    | ⟨0, _⟩ => show win3_3.index t (0 : Fin 2) * 1 + 1 * 0 = 0; omega
    | ⟨1, _⟩ => show win3_3.index t (1 : Fin 2) * 64 + 1 * k.val = k.val; omega
  have r4 : ∀ k : Fin 64, iblk3 V c 4 t (ix2 (j 1) k)
      = V c main_arg14 (ix2 ((((cfg3.win 6).blk t).view.emb j) 1) k) := by
    intro k; unfold iblk3; rw [View.read_apply]
    show V c main_arg14 (((cfg3.win 4).blk t).view.emb (ix2 (j 1) k)) = _
    refine congrArg (V c main_arg14) (funext fun a => Fin.ext ?_)
    match a with
    | ⟨0, _⟩ => show win3_4.index t (0 : Fin 2) * 64 + 1 * (j 1).val = win3_6.index t (1 : Fin 2) * 64 + 1 * (j 1).val; omega
    | ⟨1, _⟩ => show win3_4.index t (1 : Fin 2) * 64 + 1 * k.val = k.val; omega
  have r5 : iblk3 V c 5 t (ix2 (0 : Fin 1) (j 1))
      = V c main_v20 (ix2 (0 : Fin 1) ((((cfg3.win 6).blk t).view.emb j) 1)) := by
    unfold iblk3; rw [View.read_apply]
    show V c main_v20 (((cfg3.win 5).blk t).view.emb (ix2 (0 : Fin 1) (j 1))) = _
    refine congrArg (V c main_v20) (funext fun a => Fin.ext ?_)
    match a with
    | ⟨0, _⟩ => show win3_5.index t (0 : Fin 2) * 1 + 1 * 0 = 0; omega
    | ⟨1, _⟩ => show win3_5.index t (1 : Fin 2) * 64 + 1 * (j 1).val = win3_6.index t (1 : Fin 2) * 64 + 1 * (j 1).val; omega
  rw [r5]
  simp only [r0, r1, r2, r3, r4]
  rfl

/-- An index of the result array is in point `t`'s block iff each coordinate is in the block's range on its axis. -/
theorem mem_blk (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v21).slice (win3_6.rect t)).set ↔ _
  rw [View.set_slice_whole, Rect.mem_set_unit]
  exact Iff.rfl

/-- Row `r` of the result lies in the block of point `r / 5000`: the blocks cover the array. -/
theorem covered (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e60, e61⟩ := index_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e60, ht]; omega
  | ⟨1, _⟩ =>
    show win3_6.index t (1 : Fin 2) * 64 ≤ (i 1).val ∧ (i 1).val < win3_6.index t (1 : Fin 2) * 64 + 64
    rw [e61]; omega

/-- THE ARRAY the call leaves: the node update of the arrays it found. -/
theorem array_eq (c : Dev nD) :
    (dat3 V c).arrAt 6 cfg3.N
      = nodeUpdate (V c main_v12) (V c main_v18) (V c main_arg12) (fun i => V c main_v19 (ix2 (0 : Fin 1) (i 0)))
          (V c main_arg14) (fun i => V c main_v20 (ix2 (0 : Fin 1) (i 0))) :=
  (dat3 V c).arrAt_eq_of_cover 6 _ (fun t _ => flushed_eq V c t) covered

end Cert.KernelIdeal.NodeUpdate2

end
-- ==== Proof.Head.lean ====
/-
  The linear head, as the array the last pipelined call leaves behind it.

  The call has one grid point: its blocks are the whole arrays. The body reads the 1000 × 64 pooled features, the
  12 × 64 weight matrix and the bias row, and stores pooled · Wᵀ + b. So the result array ends holding `head` of the
  arrays as the call found them.
-/
import proofs.«400220_j12919261627156_1_alg».proof.Proof.Gen.KernelIdeal.Frame
import proofs.«400220_j12919261627156_1_alg».proof.Proof.Layers
import proofs.«400220_j12919261627156_1_alg».proof.Proof.PlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Head

open Cert.KernelIdeal Cert.KernelIdeal.Gen Cert.MessagePassing

/-- The body's matrix product has the plain dimension numbers. -/
theorem dims : dot_S1000x64_S64x12_S1000x12_1_0_0_1_n_n = DotDims.plain 1000 64 12 := rfl

/-- What the body stores, at graph `g` and task `q`: the pooled row's dot product with the task's weights, plus the
    task's bias. -/
theorem stored_apply (p : Vec Ideal S1000x64 .f32) (W : Vec Ideal S12x64 .f32) (b : Vec Ideal S1x12 .f32)
    (g : Fin 1000) (q : Fin 12) :
    k4_pay1 (F := Ideal) p W b (ix2 g q) = (∑ k : Fin 64, p (ix2 g k) * W (ix2 q k)) + b (ix2 (0 : Fin 1) q) := by
  unfold k4_pay1
  simp only [shapeCast_self, addf_apply, matmul, dims]
  rw [matmul_plain_apply, broadcastTo_1b_ab_apply]
  have hW : ∀ k : Fin 64, transpose S64x12 [1, 0] (truncf .bf16 W bitsLt_bf16_f32 : FVec Ideal S12x64 .bf16)
      transposes_S12x64_p1_0_S64x12 (ix2 k q) = W (ix2 q k) :=
    fun k => transpose_ix2_apply (truncf .bf16 W bitsLt_bf16_f32 : FVec Ideal S12x64 .bf16) transposes_S12x64_p1_0_S64x12 k q
  simp only [hW, truncf_apply]

/-- The same at any index of the block. -/
theorem stored_at (p : Vec Ideal S1000x64 .f32) (W : Vec Ideal S12x64 .f32) (b : Vec Ideal S1x12 .f32) (j : S1000x12.Idx) :
    k4_pay1 (F := Ideal) p W b j = (∑ k : Fin 64, p (ix2 (j 0) k) * W (ix2 (j 1) k)) + b (ix2 (0 : Fin 1) (j 1)) := by
  obtain ⟨g, q, rfl⟩ : ∃ (g : Fin 1000) (q : Fin 12), j = ix2 g q := ⟨j 0, j 1, eq_ix2 j⟩
  exact stored_apply p W b g q

/-! ## The one block -/

-- the contents of the buffers when the call is entered: any
variable (V : (c : Dev nD) → (b : Ref sig .tc) → Buf (Elt Ideal) ((c : Thread nD τ).loc b))

theorem hz : (![0, 0] : Fin 2 → Nat) = fun _ => 0 := funext fun a => by fin_cases a <;> rfl

/-- Every window's one block sits at the origin. -/
theorem index_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- WHAT THE POINT WRITES BACK is the head of the whole arrays, read through the one block. -/
theorem flushed_eq (c : Dev nD) (t : Fin cfg4.N) :
    (dat4 V c).flushed 3 t = ((cfg4.win 3).blk t).view.read (Elt Ideal)
      (head (V c main_v33) (V c main_arg16) (fun i => V c main_v34 (ix2 (0 : Fin 1) (i 0)))) := by
  show (cfg4.win 3).cut (grid4.coords t) ((dat4 V c).after 3 t) = _
  rw [after4_3]
  unfold out4_3
  rw [View.canon_unit_zero hz]
  simp only [View.ld_unit_zero (S := S1000x64) hz, View.ld_unit_zero (S := S12x64) hz, View.ld_unit_zero (S := S1x12) hz]
  obtain ⟨e00, e01, e10, e11, e20, e21, e30, e31⟩ := index_facts t
  funext j
  refine (stored_at (iblk4 V c 0 t) (iblk4 V c 1 t) (iblk4 V c 2 t) j).trans ?_
  rw [View.read_apply]
  -- each input block, read at the block index, is its array at the embedded index
  have r0 : ∀ k : Fin 64, iblk4 V c 0 t (ix2 (j 0) k)
      = V c main_v33 (ix2 ((((cfg4.win 3).blk t).view.emb j) 0) k) := by
    intro k; unfold iblk4; rw [View.read_apply]
    show V c main_v33 (((cfg4.win 0).blk t).view.emb (ix2 (j 0) k)) = _
    refine congrArg (V c main_v33) (funext fun a => Fin.ext ?_)
    match a with
    | ⟨0, _⟩ => show win4_0.index t (0 : Fin 2) * 1000 + 1 * (j 0).val = win4_3.index t (0 : Fin 2) * 1000 + 1 * (j 0).val; omega
    | ⟨1, _⟩ => show win4_0.index t (1 : Fin 2) * 64 + 1 * k.val = k.val; omega
  have r1 : ∀ k : Fin 64, iblk4 V c 1 t (ix2 (j 1) k)
      = V c main_arg16 (ix2 ((((cfg4.win 3).blk t).view.emb j) 1) k) := by
    intro k; unfold iblk4; rw [View.read_apply]
    show V c main_arg16 (((cfg4.win 1).blk t).view.emb (ix2 (j 1) k)) = _
    refine congrArg (V c main_arg16) (funext fun a => Fin.ext ?_)
    match a with
    | ⟨0, _⟩ => show win4_1.index t (0 : Fin 2) * 12 + 1 * (j 1).val = win4_3.index t (1 : Fin 2) * 12 + 1 * (j 1).val; omega
    | ⟨1, _⟩ => show win4_1.index t (1 : Fin 2) * 64 + 1 * k.val = k.val; omega
  have r2 : iblk4 V c 2 t (ix2 (0 : Fin 1) (j 1))
      = V c main_v34 (ix2 (0 : Fin 1) ((((cfg4.win 3).blk t).view.emb j) 1)) := by
    unfold iblk4; rw [View.read_apply]
    show V c main_v34 (((cfg4.win 2).blk t).view.emb (ix2 (0 : Fin 1) (j 1))) = _
    refine congrArg (V c main_v34) (funext fun a => Fin.ext ?_)
    match a with
    | ⟨0, _⟩ => show win4_2.index t (0 : Fin 2) * 1 + 1 * 0 = 0; omega
    | ⟨1, _⟩ => show win4_2.index t (1 : Fin 2) * 12 + 1 * (j 1).val = win4_3.index t (1 : Fin 2) * 12 + 1 * (j 1).val; omega
  rw [r2]
  simp only [r0, r1]
  rfl

/-- An index of the result array is in the point's block iff each coordinate is in the block's range on its axis. -/
theorem mem_blk (t : Fin cfg4.N) (i : S1000x12.Idx) :
    i ∈ ((cfg4.win 3).blk t).view.set ↔ ∀ a : Fin 2, win4_3.index t a * S1000x12.size a ≤ (i a).val
      ∧ (i a).val < win4_3.index t a * S1000x12.size a + S1000x12.size a := by
  show i ∈ ((View.whole main_v35).slice (win4_3.rect t)).set ↔ _
  rw [View.set_slice_whole, Rect.mem_set_unit]
  exact Iff.rfl

/-- The one block is the whole result array. -/
theorem covered (i : S1000x12.Idx) :
    ∃ t : Fin cfg4.N, (cfg4.win 3).flush t = true ∧ i ∈ ((cfg4.win 3).blk t).view.set := by
  have hi0 : (i 0).val < 1000 := (i 0).isLt
  have hi1 : (i 1).val < 12 := (i 1).isLt
  obtain ⟨-, -, -, -, -, -, e30, e31⟩ := index_facts t4_0
  refine ⟨t4_0, flush4_3 t4_0, ?_⟩
  rw [mem_blk]
  intro a
  match a with
  | ⟨0, _⟩ =>
    show win4_3.index t4_0 (0 : Fin 2) * 1000 ≤ (i 0).val ∧ (i 0).val < win4_3.index t4_0 (0 : Fin 2) * 1000 + 1000
    rw [e30]; omega
  | ⟨1, _⟩ =>
    show win4_3.index t4_0 (1 : Fin 2) * 12 ≤ (i 1).val ∧ (i 1).val < win4_3.index t4_0 (1 : Fin 2) * 12 + 12
    rw [e31]; omega

/-- THE ARRAY the call leaves: the head of the arrays it found. -/
theorem array_eq (c : Dev nD) :
    (dat4 V c).arrAt 3 cfg4.N
      = head (V c main_v33) (V c main_arg16) (fun i => V c main_v34 (ix2 (0 : Fin 1) (i 0))) :=
  (dat4 V c).arrAt_eq_of_cover 3 _ (fun t _ => flushed_eq V c t) covered

end Cert.KernelIdeal.Head

end
-- ==== Proof.KernelValue.lean ====
/-
  The kernel program's result as `network` of its arguments.

  The stages, in program order, each from the one before: the first layer's messages (the first pipelined call's
  array), its node features (the second's), the second layer's messages and features (the third's and fourth's), and
  the head of the mean pool (the fifth's). A pipelined call's array is its layer formula of the arrays it found; what
  it found is what the stretch before it left, which is a host operation of earlier stages or an argument as
  launched. With every source index in range the gathers take no fill value.
-/
import proofs.«400220_j12919261627156_1_alg».proof.Proof.Carried
import proofs.«400220_j12919261627156_1_alg».proof.Proof.EdgeMessage1
import proofs.«400220_j12919261627156_1_alg».proof.Proof.EdgeMessage2
import proofs.«400220_j12919261627156_1_alg».proof.Proof.NodeUpdate1
import proofs.«400220_j12919261627156_1_alg».proof.Proof.NodeUpdate2
import proofs.«400220_j12919261627156_1_alg».proof.Proof.Head
import proofs.«400220_j12919261627156_1_alg».proof.Proof.InRange

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Boundaries Cert.KernelIdeal.Carried Cert.MessagePassing

variable (m : (ℓ : Loc nD τ sig) → Buf (Elt Ideal) ℓ) (ρ : Dev nD → PrngReg) (c : Dev nD)

/-! ## The edge list's rows, carried to where they are read -/

theorem source_at6 : W6 m ρ c (Proc.devRef .tc main_v1) = sourceRow (m ((c.tc : Thread nD τ).loc main_arg1)) :=
  (W6_keep m ρ c main_v1 (by decide)).trans ((W5_keep m ρ c main_v1 (by decide)).trans
    ((W4_keep m ρ c main_v1 (by decide)).trans ((W3_keep m ρ c main_v1 (by decide)).trans
      ((W2_keep m ρ c main_v1 (by decide)).trans (source_at1 m ρ c)))))

theorem target_at4 : W4 m ρ c (Proc.devRef .tc main_v3) = targetRow (m ((c.tc : Thread nD τ).loc main_arg1)) :=
  (W4_keep m ρ c main_v3 (by decide)).trans ((W3_keep m ρ c main_v3 (by decide)).trans
    ((W2_keep m ρ c main_v3 (by decide)).trans (target_at1 m ρ c)))

theorem target_at9 : W9 m ρ c (Proc.devRef .tc main_v3) = targetRow (m ((c.tc : Thread nD τ).loc main_arg1)) :=
  (W9_keep m ρ c main_v3 (by decide)).trans ((W8_keep m ρ c main_v3 (by decide)).trans
    ((W7_keep m ρ c main_v3 (by decide)).trans ((W6_keep m ρ c main_v3 (by decide)).trans
      ((W5_keep m ρ c main_v3 (by decide)).trans (target_at4 m ρ c)))))

/-! ## The first layer -/

/-- The first pipelined call leaves the first layer's messages. -/
theorem messages1 (hin : ∀ e : SEdges.Idx, 0 ≤ (sourceRow (m ((c.tc : Thread nD τ).loc main_arg1)) e).toInt ∧ (sourceRow (m ((c.tc : Thread nD τ).loc main_arg1)) e).toInt < 100000) :
    W4 m ρ c (Proc.devRef .tc main_v6)
      = edgeMessage (m ((c.tc : Thread nD τ).loc main_arg2)) (rows rowGather7_wf (m ((c.tc : Thread nD τ).loc main_arg0)) (sourceRow (m ((c.tc : Thread nD τ).loc main_arg1)))) (m ((c.tc : Thread nD τ).loc main_arg4)) (m ((c.tc : Thread nD τ).loc main_arg5)) := by
  refine (W4_arr m ρ c 4).trans ((EdgeMessage1.array_eq (V3 m ρ) c).trans ?_)
  have e2 : V3 m ρ c main_arg2 = (m ((c.tc : Thread nD τ).loc main_arg2)) := (launch m ρ c main_arg2 (by decide)).2.2.1
  have e4 : V3 m ρ c main_arg4 = (m ((c.tc : Thread nD τ).loc main_arg4)) := (launch m ρ c main_arg4 (by decide)).2.2.1
  have eb : V3 m ρ c main_v5 = shapeCast S1x7 (m ((c.tc : Thread nD τ).loc main_arg5)) shapeCasts_S7_S1x7 :=
    (bias_e1 m ρ c).trans (by rw [(launch m ρ c main_arg5 (by decide)).2.1])
  have ex : V3 m ρ c main_v4 = rows rowGather7_wf (m ((c.tc : Thread nD τ).loc main_arg0)) (sourceRow (m ((c.tc : Thread nD τ).loc main_arg1))) :=
    (W3_keep m ρ c main_v4 (by decide)).trans ((gathered1 m ρ c).trans (by
      rw [(launch m ρ c main_arg0 (by decide)).1, source_at1 m ρ c]
      exact rowsOrFill_eq rowGather7_wf mask7 fill7 _ _ hin))
  rw [e2, e4, ex, eb]
  exact congrArg (edgeMessage _ _ _) (rowOf_shapeCast (m ((c.tc : Thread nD τ).loc main_arg5)) shapeCasts_S7_S1x7)

/-- The second pipelined call leaves the first layer's node features. -/
theorem features1 (hin : ∀ e : SEdges.Idx, 0 ≤ (sourceRow (m ((c.tc : Thread nD τ).loc main_arg1)) e).toInt ∧ (sourceRow (m ((c.tc : Thread nD τ).loc main_arg1)) e).toInt < 100000) :
    W6 m ρ c (Proc.devRef .tc main_v12) = layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W6_arr m ρ c 6).trans ((NodeUpdate1.array_eq (V5 m ρ) c).trans ?_)
  have e0 : V5 m ρ c main_arg0 = (m ((c.tc : Thread nD τ).loc main_arg0)) := (launch m ρ c main_arg0 (by decide)).2.2.2.2.1
  have e6 : V5 m ρ c main_arg6 = (m ((c.tc : Thread nD τ).loc main_arg6)) := (launch m ρ c main_arg6 (by decide)).2.2.2.2.1
  have e8 : V5 m ρ c main_arg8 = (m ((c.tc : Thread nD τ).loc main_arg8)) := (launch m ρ c main_arg8 (by decide)).2.2.2.2.1
  have ea : V5 m ρ c main_v9 = sumAtTargets nodeScatter7_wf zero7 (targetRow (m ((c.tc : Thread nD τ).loc main_arg1)))
      (edgeMessage (m ((c.tc : Thread nD τ).loc main_arg2)) (rows rowGather7_wf (m ((c.tc : Thread nD τ).loc main_arg0)) (sourceRow (m ((c.tc : Thread nD τ).loc main_arg1)))) (m ((c.tc : Thread nD τ).loc main_arg4)) (m ((c.tc : Thread nD τ).loc main_arg5))) :=
    (summed1 m ρ c).trans (by rw [target_at4 m ρ c, messages1 m ρ c hin])
  have eb1 : V5 m ρ c main_v10 = shapeCast S1x64 (m ((c.tc : Thread nD τ).loc main_arg7)) shapeCasts_S64_S1x64 :=
    (bias_n1a m ρ c).trans (by rw [(launch m ρ c main_arg7 (by decide)).2.2.2.1])
  have eb2 : V5 m ρ c main_v11 = shapeCast S1x64 (m ((c.tc : Thread nD τ).loc main_arg9)) shapeCasts_S64_S1x64 :=
    (bias_n1b m ρ c).trans (by rw [(launch m ρ c main_arg9 (by decide)).2.2.2.1])
  rw [e0, e6, e8, ea, eb1, eb2]
  unfold layer1
  exact congrArg₂ (fun b1 b2 => nodeUpdate _ _ _ b1 _ b2)
    (rowOf_shapeCast (m ((c.tc : Thread nD τ).loc main_arg7)) shapeCasts_S64_S1x64) (rowOf_shapeCast (m ((c.tc : Thread nD τ).loc main_arg9)) shapeCasts_S64_S1x64)

/-- The first layer's features are still in their buffer when the fourth pipelined call reads them. -/
theorem features1_at10 (hin : ∀ e : SEdges.Idx, 0 ≤ (sourceRow (m ((c.tc : Thread nD τ).loc main_arg1)) e).toInt ∧ (sourceRow (m ((c.tc : Thread nD τ).loc main_arg1)) e).toInt < 100000) :
    W10 m ρ c (Proc.devRef .tc main_v12) = layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W10_keep m ρ c main_v12 (by decide)).trans ((W9_keep m ρ c main_v12 (by decide)).trans
    ((W8_keep m ρ c main_v12 (by decide)).trans ((W7_keep m ρ c main_v12 (by decide)).trans (features1 m ρ c hin))))

/-! ## The second layer -/

/-- The third pipelined call leaves the second layer's messages. -/
theorem messages2 (hin : ∀ e : SEdges.Idx, 0 ≤ (sourceRow (m ((c.tc : Thread nD τ).loc main_arg1)) e).toInt ∧ (sourceRow (m ((c.tc : Thread nD τ).loc main_arg1)) e).toInt < 100000) :
    W9 m ρ c (Proc.devRef .tc main_v15)
      = edgeMessage (m ((c.tc : Thread nD τ).loc main_arg2)) (rows rowGather64_wf (layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (sourceRow (m ((c.tc : Thread nD τ).loc main_arg1)))) (m ((c.tc : Thread nD τ).loc main_arg10)) (m ((c.tc : Thread nD τ).loc main_arg11)) := by
  refine (W9_arr m ρ c 4).trans ((EdgeMessage2.array_eq (V8 m ρ) c).trans ?_)
  have e2 : V8 m ρ c main_arg2 = (m ((c.tc : Thread nD τ).loc main_arg2)) := (launch m ρ c main_arg2 (by decide)).2.2.2.2.2.2.2.1
  have e10 : V8 m ρ c main_arg10 = (m ((c.tc : Thread nD τ).loc main_arg10)) := (launch m ρ c main_arg10 (by decide)).2.2.2.2.2.2.2.1
  have eb : V8 m ρ c main_v14 = shapeCast S1x64 (m ((c.tc : Thread nD τ).loc main_arg11)) shapeCasts_S64_S1x64 :=
    (bias_e2 m ρ c).trans (by rw [(launch m ρ c main_arg11 (by decide)).2.2.2.2.2.2.1])
  have ex : V8 m ρ c main_v13 = rows rowGather64_wf (layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (sourceRow (m ((c.tc : Thread nD τ).loc main_arg1))) :=
    (W8_keep m ρ c main_v13 (by decide)).trans ((gathered2 m ρ c).trans (by
      rw [features1 m ρ c hin, source_at6 m ρ c]
      exact rowsOrFill_eq rowGather64_wf mask64 fill64 _ _ hin))
  rw [e2, e10, ex, eb]
  exact congrArg (edgeMessage _ _ _) (rowOf_shapeCast (m ((c.tc : Thread nD τ).loc main_arg11)) shapeCasts_S64_S1x64)

/-- The fourth pipelined call leaves the second layer's node features. -/
theorem features2 (hin : ∀ e : SEdges.Idx, 0 ≤ (sourceRow (m ((c.tc : Thread nD τ).loc main_arg1)) e).toInt ∧ (sourceRow (m ((c.tc : Thread nD τ).loc main_arg1)) e).toInt < 100000) :
    W11 m ρ c (Proc.devRef .tc main_v21) = layer2 (layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W11_arr m ρ c 6).trans ((NodeUpdate2.array_eq (V10 m ρ) c).trans ?_)
  have e12 : V10 m ρ c main_arg12 = (m ((c.tc : Thread nD τ).loc main_arg12)) := (launch m ρ c main_arg12 (by decide)).2.2.2.2.2.2.2.2.2.1
  have e14 : V10 m ρ c main_arg14 = (m ((c.tc : Thread nD τ).loc main_arg14)) := (launch m ρ c main_arg14 (by decide)).2.2.2.2.2.2.2.2.2.1
  have eh : V10 m ρ c main_v12 = layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := features1_at10 m ρ c hin
  have ea : V10 m ρ c main_v18 = sumAtTargets nodeScatter64_wf zero64 (targetRow (m ((c.tc : Thread nD τ).loc main_arg1)))
      (edgeMessage (m ((c.tc : Thread nD τ).loc main_arg2)) (rows rowGather64_wf (layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (sourceRow (m ((c.tc : Thread nD τ).loc main_arg1)))) (m ((c.tc : Thread nD τ).loc main_arg10)) (m ((c.tc : Thread nD τ).loc main_arg11))) :=
    (summed2 m ρ c).trans (by rw [target_at9 m ρ c, messages2 m ρ c hin])
  have eb1 : V10 m ρ c main_v19 = shapeCast S1x64 (m ((c.tc : Thread nD τ).loc main_arg13)) shapeCasts_S64_S1x64 :=
    (bias_n2a m ρ c).trans (by rw [(launch m ρ c main_arg13 (by decide)).2.2.2.2.2.2.2.2.1])
  have eb2 : V10 m ρ c main_v20 = shapeCast S1x64 (m ((c.tc : Thread nD τ).loc main_arg15)) shapeCasts_S64_S1x64 :=
    (bias_n2b m ρ c).trans (by rw [(launch m ρ c main_arg15 (by decide)).2.2.2.2.2.2.2.2.1])
  rw [e12, e14, eh, ea, eb1, eb2]
  unfold layer2
  exact congrArg₂ (fun b1 b2 => nodeUpdate _ _ _ b1 _ b2)
    (rowOf_shapeCast (m ((c.tc : Thread nD τ).loc main_arg13)) shapeCasts_S64_S1x64) (rowOf_shapeCast (m ((c.tc : Thread nD τ).loc main_arg15)) shapeCasts_S64_S1x64)

/-! ## The result -/

/-- The fifth pipelined call leaves the head of the mean pool of the second layer's features: the network. -/
theorem result_eq (hin : ∀ e : SEdges.Idx, 0 ≤ (sourceRow (m ((c.tc : Thread nD τ).loc main_arg1)) e).toInt ∧ (sourceRow (m ((c.tc : Thread nD τ).loc main_arg1)) e).toInt < 100000) :
    W13 m ρ c (Proc.devRef .tc main_v35)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W13_arr m ρ c 3).trans ((Head.array_eq (V12 m ρ) c).trans ?_)
  have e16 : V12 m ρ c main_arg16 = (m ((c.tc : Thread nD τ).loc main_arg16)) := (launch m ρ c main_arg16 (by decide)).2.2.2.2.2.2.2.2.2.2.2
  have ep : V12 m ρ c main_v33 = meanPool (m ((c.tc : Thread nD τ).loc main_arg3)) (layer2 (layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :=
    (pooled m ρ c).trans (by rw [(launch m ρ c main_arg3 (by decide)).2.2.2.2.2.2.2.2.2.2.1, features2 m ρ c hin])
  have eb : V12 m ρ c main_v34 = shapeCast S1x12 (m ((c.tc : Thread nD τ).loc main_arg17)) shapeCasts_S12_S1x12 :=
    (bias_fc m ρ c).trans (by rw [(launch m ρ c main_arg17 (by decide)).2.2.2.2.2.2.2.2.2.2.1])
  rw [e16, ep, eb]
  unfold network
  exact congrArg (head _ _) (rowOf_shapeCast (m ((c.tc : Thread nD τ).loc main_arg17)) shapeCasts_S12_S1x12)

end Cert.KernelIdeal.KernelValue

end
-- ==== Proof.lean ====
/-
  The certificate's five conjuncts, for a two-layer message-passing network with a mean-pooled linear head.

  * The kernel as printed, and the kernel and the reference read over the extended reals, each run to the end without
    a fault and leave their eighteen argument arrays as launched: the generated frames of the two kernels, and the
    generated run of the reference with its statement about the result dropped.
  * The idealization rewrote no operation, so the statement that it preserves the kernel is the trivial one.
  * Over the extended reals the kernel and the reference, launched on equal arguments, end with equal results. Both
    results are one function of the arguments, `network`: two rounds of edge messages summed at their target nodes and
    passed through the nodes' two-layer perceptron, the mean over each graph's nodes, the linear head. The kernel's
    result array ends at the last boundary's contents, which is `network` of the launched arguments once no gathered row
    is replaced by the fill value; that needs every source index in [0, 100000), which is the precondition's last
    conjunct read back. The reference's generated run ends at a term that is `network` of its own arguments. The
    arguments agree, so the two are equal; the argument arrays are unchanged by the frames above.
-/
import proofs.«400220_j12919261627156_1_alg».proof.Defs
import proofs.«400220_j12919261627156_1_alg».proof.Proof.Gen.Kernel
import proofs.«400220_j12919261627156_1_alg».proof.Proof.Gen.Kernel.Skeleton
import proofs.«400220_j12919261627156_1_alg».proof.Proof.Gen.Kernel.Launch
import proofs.«400220_j12919261627156_1_alg».proof.Proof.Gen.Kernel.Points
import proofs.«400220_j12919261627156_1_alg».proof.Proof.Gen.Kernel.Frame
import proofs.«400220_j12919261627156_1_alg».proof.Proof.Gen.KernelIdeal
import proofs.«400220_j12919261627156_1_alg».proof.Proof.Gen.KernelIdeal.Skeleton
import proofs.«400220_j12919261627156_1_alg».proof.Proof.Gen.KernelIdeal.Launch
import proofs.«400220_j12919261627156_1_alg».proof.Proof.Gen.KernelIdeal.Points
import proofs.«400220_j12919261627156_1_alg».proof.Proof.Gen.KernelIdeal.Frame
import proofs.«400220_j12919261627156_1_alg».proof.Proof.Gen.ReferenceIdeal
import proofs.«400220_j12919261627156_1_alg».proof.Proof.Gen.ReferenceIdeal.Run
import proofs.«400220_j12919261627156_1_alg».proof.Proof.Gen.Pre_finite_inputs
import proofs.«400220_j12919261627156_1_alg».proof.Proof.HostOps
import proofs.«400220_j12919261627156_1_alg».proof.Proof.ResultRun
import proofs.«400220_j12919261627156_1_alg».proof.Proof.InRange
import proofs.«400220_j12919261627156_1_alg».proof.Proof.RefLayers
import proofs.«400220_j12919261627156_1_alg».proof.Proof.KernelValue

noncomputable section

namespace Cert.Proof

open Idealize.ShloMosaic Idealize.ShloMosaic.TcCoe Idealize.SL.Sem

/-- Two statements about the final memory, each true at the end of every weakly fair execution of one launch, are true
    there together. -/
theorem θ_run_and {nD : Nat} {τ : Topo} {sig : RefSig} {Val : EltTy → Type} {Λ : Labels} (defs : Defs nD τ sig Val Λ)
    (p : (c : Thread nD τ) → Prog (TpuEff nD τ sig Val Λ c.2) PUnit) (s : MemSt nD τ sig Val)
    {Q₁ Q₂ : PUnit × MemSt nD τ sig Val → Prop} (h₁ : θ_run defs p s Q₁) (h₂ : θ_run defs p s Q₂) :
    θ_run defs p s (fun r => Q₁ r ∧ Q₂ r) := by
  have a : MeshRun defs (fun m' => Q₁ (⟨⟩, m')) (load p s) := h₁
  have b : MeshRun defs (fun m' => Q₂ (⟨⟩, m')) (load p s) := h₂
  exact (⟨fun t ht hf => ⟨a.post t ht hf, b.post t ht hf⟩, a.progress, a.fair⟩ :
    MeshRun defs (fun m' => Q₁ (⟨⟩, m') ∧ Q₂ (⟨⟩, m')) (load p s))

/-- The kernel as printed runs to the end and leaves its arguments as launched. -/
theorem frame_Kernel : Cert.frame_Kernel := fun m ρ _ => Cert.Kernel.Gen.frame m ρ

/-- So does the kernel read over the extended reals. -/
theorem frame_KernelIdeal : Cert.frame_KernelIdeal := fun m ρ _ => Cert.KernelIdeal.Gen.frame m ρ

/-- So does the reference: its run's statement, the part about the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from equal arguments that satisfy the precondition, the kernel's result array and the
    reference's both end at `network` of the kernel's launched arguments, and the arguments end unchanged. -/
theorem algebraic : Cert.algebraic_KernelIdeal_ReferenceIdeal := by
  intro m ρ m' ρ' hpre hagree
  refine ⟨fun c => Cert.MessagePassing.network
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    ?_, ?_⟩
  · -- the kernel: the result array at the last boundary's contents, with no gathered row replaced; and its frame
    exact (θ_run Cert.KernelIdeal.defs _ _).mono
      (fun _ h c => ⟨(h.1 c).trans
        (Cert.KernelIdeal.KernelValue.result_eq m ρ c (Cert.KernelIdeal.InRange.source_inRange m hpre c)), h.2 c⟩)
      (θ_run_and _ _ _ (Cert.KernelIdeal.ResultRun.run_result (F := Ideal) m ρ) (Cert.KernelIdeal.Gen.frame (F := Ideal) m ρ))
  · -- the reference: its run's result is `network` of its own arguments, which are the kernel's
    refine (θ_run Cert.ReferenceIdeal.defs _ _).mono
      (fun _ h c => ⟨(h c).1.trans ((Cert.ReferenceIdeal.RefLayers.result_eq m' c).trans ?_), (h c).2⟩)
      (Cert.ReferenceIdeal.Value.run (F := Ideal) m' ρ')
    obtain ⟨e0, e1, e2, e3, e4, e5, e6, e7, e8, e9, e10, e11, e12, e13, e14, e15, e16, e17⟩ := hagree c
    congr 1 <;> assumption

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
